-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S64x4096x1 : Shape := ⟨3, ![64, 4096, 1]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel
  bcast_S_S64x4096x1 : S_.BroadcastsInDim S64x4096x1 (![] : Fin 0 → Fin S64x4096x1.rank)
  reducesTo_S64x4096x1_S_d0_1_2 : S64x4096x1.ReducesTo [0, 1, 2] S_

variable [Facts]

def fn {F : FTy → Type} [FloatOps F] (main_arg0 : FVec F S64x4096x256 .f32) (main_arg1 : FVec F S64x4096x1 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  let main_v4 : FVec F S64x4096x1 .f32 := Host.absf main_arg1
  let main_cst_0 : FVec F S_ .f32 := constant S_ .f32 0x7F800000#32
  let main_v5 : FVec F S64x4096x1 .f32 := broadcastInDim S64x4096x1 ![] bcast_S_S64x4096x1 main_cst_0
  let main_v6 : IVec S64x4096x1 1 := cmpf .olt main_v4 main_v5
  let main_c_1 : IVec S_ 1 := constantI S_ 1 1#1
  let main_v7 : IVec S_ 1 := (fun x v => Host.reduce IntOp.andi x v reducesTo_S64x4096x1_S_d0_1_2 h_S_) main_v6 main_c_1
  let main_v8 : IVec S_ 1 := andi main_v3 main_v7
  main_v8
-- ==== Kernel.lean ====
abbrev S64x4096x256 : Shape := ⟨3, ![64, 4096, 256]⟩
abbrev S64x4096x1 : Shape := ⟨3, ![64, 4096, 1]⟩
abbrev S64x1x256 : Shape := ⟨3, ![64, 1, 256]⟩
abbrev S1x4096x256 : Shape := ⟨3, ![1, 4096, 256]⟩
abbrev S1x4096x1 : Shape := ⟨3, ![1, 4096, 1]⟩
abbrev S1x1x256 : Shape := ⟨3, ![1, 1, 256]⟩
abbrev S4096x256 : Shape := ⟨2, ![4096, 256]⟩
abbrev S4096x1 : Shape := ⟨2, ![4096, 1]⟩
abbrev S1 : Shape := ⟨1, ![1]⟩
abbrev S1x1 : Shape := ⟨2, ![1, 1]⟩
abbrev S256 : Shape := ⟨1, ![256]⟩
abbrev S1x256 : Shape := ⟨2, ![1, 256]⟩
abbrev S4096 : Shape := ⟨1, ![4096]⟩
abbrev S64x4096 : Shape := ⟨2, ![64, 4096]⟩
abbrev S64x256 : Shape := ⟨2, ![64, 256]⟩

abbrev nBuf : Space → Nat
  | .hbm => 6
  | .vmem => 8
  | .smem => 0
  | _ => 0

abbrev bufTy : (tb : Table) → Fin (tcTables nBuf tb) → BufTy
  | .hbm, ⟨0, _⟩ => ⟨S64x4096x256, .f32⟩
  | .hbm, ⟨1, _⟩ => ⟨S64x4096x1, .f32⟩
  | .hbm, ⟨2, _⟩ => ⟨S64x4096x1, .f32⟩
  | .hbm, ⟨3, _⟩ => ⟨S64x1x256, .f32⟩
  | .hbm, ⟨4, _⟩ => ⟨S64x4096, .f32⟩
  | .hbm, ⟨5, _⟩ => ⟨S64x256, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x1, .f32⟩
  | .local _ .vmem, ⟨3, _⟩ => ⟨S1x4096x1, .f32⟩
  | .local _ .vmem, ⟨4, _⟩ => ⟨S1x4096x1, .f32⟩
  | .local _ .vmem, ⟨5, _⟩ => ⟨S1x4096x1, .f32⟩
  | .local _ .vmem, ⟨6, _⟩ => ⟨S1x1x256, .f32⟩
  | .local _ .vmem, ⟨7, _⟩ => ⟨S1x1x256, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  broadcasts_S4096x1_S4096x256 : S4096x1.Broadcasts S4096x256
  reduces_S4096x1_S1 : S4096x1.Reduces [0] S1
  shapeCasts_S1_S1x1 : S1.ShapeCasts S1x1
  broadcasts_S1x1_S4096x1 : S1x1.Broadcasts S4096x1
  reduces_S4096x256_S256 : S4096x256.Reduces [0] S256
  shapeCasts_S256_S1x256 : S256.ShapeCasts S1x256
  reduces_S1x256_S1 : S1x256.Reduces [1] S1
  broadcasts_S1x1_S1x256 : S1x1.Broadcasts S1x256
  broadcasts_S1x256_S4096x256 : S1x256.Broadcasts S4096x256
  reduces_S4096x256_S4096 : S4096x256.Reduces [1] S4096
  shapeCasts_S4096_S4096x1 : S4096.ShapeCasts S4096x1
  shapeCasts_S4096x1_S1x4096x1 : S4096x1.ShapeCasts S1x4096x1
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S64x4096x1_S64x4096 : S64x4096x1.ShapeCasts S64x4096
  shapeCasts_S64x1x256_S64x256 : S64x1x256.ShapeCasts S64x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S64x4096x256.size a
  hwx0_0 : ∀ i : grid0.Coords, EltTy.bits .f32 = 32 ∨ (Rect.block (s := S64x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1.size a ≤ S64x4096x1.size a
  hwx0_1 : ∀ i : grid0.Coords, EltTy.bits .f32 = 32 ∨ (Rect.block (s := S64x4096x1) S1x4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S64x4096x1.size a
  hwx0_2 : ∀ i : grid0.Coords, EltTy.bits .f32 = 32 ∨ (Rect.block (s := S64x4096x1) S1x4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S64x1x256.size a
  hwx0_3 : ∀ i : grid0.Coords, EltTy.bits .f32 = 32 ∨ (Rect.block (s := S64x1x256) S1x1x256.size (cc0_transform_3 i) (hinb0_3 i)).WholeWords (EltTy.packing .f32)

variable [Facts₀]

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x4096x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x4096x256 : Shape := ⟨3, ![64, 4096, 256]⟩
abbrev S64x4096x1 : Shape := ⟨3, ![64, 4096, 1]⟩
abbrev S_ : Shape := ⟨0, ![]⟩
abbrev S64x1 : Shape := ⟨2, ![64, 1]⟩
abbrev S64x1x1 : Shape := ⟨3, ![64, 1, 1]⟩
abbrev S64x256 : Shape := ⟨2, ![64, 256]⟩
abbrev S64x1x256 : Shape := ⟨3, ![64, 1, 256]⟩
abbrev S64x4096 : Shape := ⟨2, ![64, 4096]⟩

abbrev nBuf : Space → Nat
  | .hbm => 151
  | .vmem => 0
  | .smem => 0
  | _ => 0

abbrev hbmTy0_0 (i : Nat) : BufTy := match i % 128 with
  | 0 => ⟨S64x4096x256, .f32⟩
  | 1 => ⟨S64x4096x1, .f32⟩
  | 2 => ⟨S64x4096x256, .f32⟩
  | 3 => ⟨S64x4096x256, .f32⟩
  | 4 => ⟨S_, .f32⟩
  | 5 => ⟨S64x4096x1, .f32⟩
  | 6 => ⟨S64x4096x1, .f32⟩
  | 7 => ⟨S_, .f32⟩
  | 8 => ⟨S64x1, .f32⟩
  | 9 => ⟨S_, .f32⟩
  | 10 => ⟨S64x1, .f32⟩
  | 11 => ⟨S64x1, .f32⟩
  | 12 => ⟨S64x1x1, .f32⟩
  | 13 => ⟨S64x4096x1, .f32⟩
  | 14 => ⟨S64x4096x1, .f32⟩
  | 15 => ⟨S64x4096x1, .f32⟩
  | 16 => ⟨S_, .f32⟩
  | 17 => ⟨S64x1, .f32⟩
  | 18 => ⟨S64x1x1, .f32⟩
  | 19 => ⟨S64x4096x1, .f32⟩
  | 20 => ⟨S64x4096x1, .f32⟩
  | 21 => ⟨S64x4096x256, .f32⟩
  | 22 => ⟨S64x4096x256, .f32⟩
  | 23 => ⟨S_, .f32⟩
  | 24 => ⟨S64x256, .f32⟩
  | 25 => ⟨S64x1x256, .f32⟩
  | 26 => ⟨S64x1x256, .f32⟩
  | 27 => ⟨S_, .f32⟩
  | 28 => ⟨S64x1, .f32⟩
  | 29 => ⟨S64x1x1, .f32⟩
  | 30 => ⟨S64x1x1, .f32⟩
  | 31 => ⟨S64x1x1, .f32⟩
  | 32 => ⟨S64x1x1, .f32⟩
  | 33 => ⟨S_, .f32⟩
  | 34 => ⟨S64x1x1, .f32⟩
  | 35 => ⟨S64x1x1, .f32⟩
  | 36 => ⟨S64x1x1, .f32⟩
  | 37 => ⟨S_, .f32⟩
  | 38 => ⟨S64x1x1, .f32⟩
  | 39 => ⟨S64x1x1, .f32⟩
  | 40 => ⟨S64x1x1, .f32⟩
  | 41 => ⟨S64x1x256, .f32⟩
  | 42 => ⟨S64x1x256, .f32⟩
  | 43 => ⟨S64x4096x256, .f32⟩
  | 44 => ⟨S64x4096x256, .f32⟩
  | 45 => ⟨S_, .f32⟩
  | 46 => ⟨S64x4096, .f32⟩
  | 47 => ⟨S64x4096x1, .f32⟩
  | 48 => ⟨S64x4096x1, .f32⟩
  | 49 => ⟨S64x4096x1, .f32⟩
  | 50 => ⟨S_, .f32⟩
  | 51 => ⟨S64x1, .f32⟩
  | 52 => ⟨S_, .f32⟩
  | 53 => ⟨S64x1, .f32⟩
  | 54 => ⟨S64x1, .f32⟩
  | 55 => ⟨S64x1x1, .f32⟩
  | 56 => ⟨S64x4096x1, .f32⟩
  | 57 => ⟨S64x4096x1, .f32⟩
  | 58 => ⟨S64x4096x1, .f32⟩
  | 59 => ⟨S_, .f32⟩
  | 60 => ⟨S64x1, .f32⟩
  | 61 => ⟨S64x1x1, .f32⟩
  | 62 => ⟨S64x4096x1, .f32⟩
  | 63 => ⟨S64x4096x1, .f32⟩
  | 64 => ⟨S64x4096x256, .f32⟩
  | 65 => ⟨S64x4096x256, .f32⟩
  | 66 => ⟨S_, .f32⟩
  | 67 => ⟨S64x256, .f32⟩
  | 68 => ⟨S64x1x256, .f32⟩
  | 69 => ⟨S64x1x256, .f32⟩
  | 70 => ⟨S_, .f32⟩
  | 71 => ⟨S64x1, .f32⟩
  | 72 => ⟨S64x1x1, .f32⟩
  | 73 => ⟨S64x1x1, .f32⟩
  | 74 => ⟨S64x1x1, .f32⟩
  | 75 => ⟨S64x1x1, .f32⟩
  | 76 => ⟨S_, .f32⟩
  | 77 => ⟨S64x1x1, .f32⟩
  | 78 => ⟨S64x1x1, .f32⟩
  | 79 => ⟨S64x1x1, .f32⟩
  | 80 => ⟨S_, .f32⟩
  | 81 => ⟨S64x1x1, .f32⟩
  | 82 => ⟨S64x1x1, .f32⟩
  | 83 => ⟨S64x1x1, .f32⟩
  | 84 => ⟨S64x1x256, .f32⟩
  | 85 => ⟨S64x1x256, .f32⟩
  | 86 => ⟨S64x4096x256, .f32⟩
  | 87 => ⟨S64x4096x256, .f32⟩
  | 88 => ⟨S_, .f32⟩
  | 89 => ⟨S64x4096, .f32⟩
  | 90 => ⟨S64x4096x1, .f32⟩
  | 91 => ⟨S64x4096x1, .f32⟩
  | 92 => ⟨S64x4096x1, .f32⟩
  | 93 => ⟨S_, .f32⟩
  | 94 => ⟨S64x1, .f32⟩
  | 95 => ⟨S_, .f32⟩
  | 96 => ⟨S64x1, .f32⟩
  | 97 => ⟨S64x1, .f32⟩
  | 98 => ⟨S64x1x1, .f32⟩
  | 99 => ⟨S64x4096x1, .f32⟩
  | 100 => ⟨S64x4096x1, .f32⟩
  | 101 => ⟨S64x4096x1, .f32⟩
  | 102 => ⟨S_, .f32⟩
  | 103 => ⟨S64x1, .f32⟩
  | 104 => ⟨S64x1x1, .f32⟩
  | 105 => ⟨S64x4096x1, .f32⟩
  | 106 => ⟨S64x4096x1, .f32⟩
  | 107 => ⟨S64x4096x256, .f32⟩
  | 108 => ⟨S64x4096x256, .f32⟩
  | 109 => ⟨S_, .f32⟩
  | 110 => ⟨S64x256, .f32⟩
  | 111 => ⟨S64x1x256, .f32⟩
  | 112 => ⟨S64x1x256, .f32⟩
  | 113 => ⟨S_, .f32⟩
  | 114 => ⟨S64x1, .f32⟩
  | 115 => ⟨S64x1x1, .f32⟩
  | 116 => ⟨S64x1x1, .f32⟩
  | 117 => ⟨S64x1x1, .f32⟩
  | 118 => ⟨S64x1x1, .f32⟩
  | 119 => ⟨S_, .f32⟩
  | 120 => ⟨S64x1x1, .f32⟩
  | 121 => ⟨S64x1x1, .f32⟩
  | 122 => ⟨S64x1x1, .f32⟩
  | 123 => ⟨S_, .f32⟩
  | 124 => ⟨S64x1x1, .f32⟩
  | 125 => ⟨S64x1x1, .f32⟩
  | 126 => ⟨S64x1x1, .f32⟩
  | 127 => ⟨S64x1x256, .f32⟩
  | _ => ⟨S64x4096x256, .f32⟩

abbrev hbmTy0_1 (i : Nat) : BufTy := match i % 128 with
  | 0 => ⟨S64x1x256, .f32⟩
  | 1 => ⟨S64x4096x256, .f32⟩
  | 2 => ⟨S64x4096x256, .f32⟩
  | 3 => ⟨S_, .f32⟩
  | 4 => ⟨S64x4096, .f32⟩
  | 5 => ⟨S64x4096x1, .f32⟩
  | 6 => ⟨S64x4096x1, .f32⟩
  | 7 => ⟨S_, .f32⟩
  | 8 => ⟨S64x1, .f32⟩
  | 9 => ⟨S_, .f32⟩
  | 10 => ⟨S64x1, .f32⟩
  | 11 => ⟨S64x1, .f32⟩
  | 12 => ⟨S64x1x1, .f32⟩
  | 13 => ⟨S64x4096x1, .f32⟩
  | 14 => ⟨S64x4096x1, .f32⟩
  | 15 => ⟨S64x4096x1, .f32⟩
  | 16 => ⟨S_, .f32⟩
  | 17 => ⟨S64x1, .f32⟩
  | 18 => ⟨S64x1x1, .f32⟩
  | 19 => ⟨S64x4096x1, .f32⟩
  | 20 => ⟨S64x4096x1, .f32⟩
  | 21 => ⟨S64x256, .f32⟩
  | 22 => ⟨S64x4096, .f32⟩
  | _ => ⟨S64x4096x256, .f32⟩

abbrev hbmTy (i : Nat) : BufTy := match i / 128 with
  | 0 => hbmTy0_0 i
  | 1 => hbmTy0_1 i
  | _ => ⟨S64x4096x256, .f32⟩

abbrev bufTy : (tb : Table) → Fin (tcTables nBuf tb) → BufTy
  | .hbm, ⟨i, _⟩ => hbmTy i
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_call1_v0 : Ref sig .tc := ⟨.hbm, 69, rfl⟩
abbrev main_call1_cst : Ref sig .tc := ⟨.hbm, 70, rfl⟩
abbrev main_call1_v1 : Ref sig .tc := ⟨.hbm, 71, rfl⟩
abbrev main_call1_v2 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_call2_v0 : Ref sig .tc := ⟨.hbm, 112, rfl⟩
abbrev main_call2_cst : Ref sig .tc := ⟨.hbm, 113, rfl⟩
abbrev main_call2_v1 : Ref sig .tc := ⟨.hbm, 114, rfl⟩
abbrev main_call2_v2 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_cst_22 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_23 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩

abbrev nD : Nat := 1
abbrev τ : Topo := Topo.v7x

variable {F : FTy → Type} [FloatOps F]

class Facts₀ : Prop where
  bcast_S64x4096x1_S64x4096x256_0_1_2 : S64x4096x1.BroadcastsInDim S64x4096x256 (![0, 1, 2] : Fin 3 → Fin S64x4096x256.rank)
  bcast_S_S64x4096x1 : S_.BroadcastsInDim S64x4096x1 (![] : Fin 0 → Fin S64x4096x1.rank)
  reducesTo_S64x4096x1_S64x1_d1 : S64x4096x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x4096x1_0_1_2 : S64x1x1.BroadcastsInDim S64x4096x1 (![0, 1, 2] : Fin 3 → Fin S64x4096x1.rank)
  reducesTo_S64x4096x256_S64x256_d1 : S64x4096x256.ReducesTo [1] S64x256
  bcast_S64x256_S64x1x256_0_2 : S64x256.BroadcastsInDim S64x1x256 (![0, 2] : Fin 2 → Fin S64x1x256.rank)
  reducesTo_S64x1x256_S64x1_d2 : S64x1x256.ReducesTo [2] S64x1
  bcast_S64x1_S64x1x1_0_1 : S64x1.BroadcastsInDim S64x1x1 (![0, 1] : Fin 2 → Fin S64x1x1.rank)
  bcast_S_S64x1x1 : S_.BroadcastsInDim S64x1x1 (![] : Fin 0 → Fin S64x1x1.rank)
  bcast_S64x1x1_S64x1x256_0_1_2 : S64x1x1.BroadcastsInDim S64x1x256 (![0, 1, 2] : Fin 3 → Fin S64x1x256.rank)
  bcast_S64x1x256_S64x4096x256_0_1_2 : S64x1x256.BroadcastsInDim S64x4096x256 (![0, 1, 2] : Fin 3 → Fin S64x4096x256.rank)
  reducesTo_S64x4096x256_S64x4096_d2 : S64x4096x256.ReducesTo [2] S64x4096
  bcast_S64x4096_S64x4096x1_0_1 : S64x4096.BroadcastsInDim S64x4096x1 (![0, 1] : Fin 2 → Fin S64x4096x1.rank)
  shapeCasts_S64x1x256_S64x256 : S64x1x256.ShapeCasts S64x256
  shapeCasts_S64x4096x1_S64x4096 : S64x4096x1.ShapeCasts S64x4096

variable [Facts₀]

class Facts : Prop extends Facts₀ where

variable [Facts]
-- ==== Proof.KStages.lean ====
/-
  The kernel's body, one routing step at a time.  For one batch the body holds the rows' weights `m` (a column of
  4096), the block `xm = m · x` (4096 × 256) and a column of logits `b`; a step takes the softmax of `m · b` down
  the 4096 rows, the weighted row sum `σ` (a row of 256), its squash `s = (‖σ‖² / (1 + ‖σ‖²) / (‖σ‖ + ε)) · σ`, and
  adds to each logit the inner product of `s` with that row of `xm`.  Three steps from `b = 0`; the results are the
  softmax of the last logits and the last `s`.  The stages are stated at any float instance, and the body's stored
  values are these stages composed.
-/
import proofs.«121942_j26946624815393_1_alg».proof.Proof.Gen.KernelIdeal.Skeleton

noncomputable section

namespace Cert.KernelIdeal.Stage

open Idealize.ShloMosaic Idealize.SL.Sem Cert.KernelIdeal Cert.KernelIdeal.Gen

variable {F : FTy → Type} [FloatOps F]

/-- The softmax of a column of 4096 logits: `exp (u - max u) / Σ exp (u - max u)`. -/
def kSoftmax (u : FVec F S4096x1 .f32) : FVec F S4096x1 .f32 :=
  divf (exp (subf u (broadcastTo S4096x1 (shapeCast S1x1 (multiReduction .maximumf [0] S1 u 0xFF800000#32 reduces_S4096x1_S1 (.inl rfl) rfl) shapeCasts_S1_S1x1) broadcasts_S1x1_S4096x1)))
    (broadcastTo S4096x1 (shapeCast S1x1 (multiReduction .add [0] S1
      (exp (subf u (broadcastTo S4096x1 (shapeCast S1x1 (multiReduction .maximumf [0] S1 u 0xFF800000#32 reduces_S4096x1_S1 (.inl rfl) rfl) shapeCasts_S1_S1x1) broadcasts_S1x1_S4096x1)))
      0x00000000#32 reduces_S4096x1_S1 (.inl rfl) rfl) shapeCasts_S1_S1x1) broadcasts_S1x1_S4096x1)

/-- The weighted sum of the rows: `σ d = Σ n, w n · xm n d`. -/
def kSigma (w : FVec F S4096x1 .f32) (xm : FVec F S4096x256 .f32) : FVec F S1x256 .f32 :=
  shapeCast S1x256 (multiReduction .add [0] S256 (mulf (broadcastTo S4096x256 w broadcasts_S4096x1_S4096x256) xm) 0x00000000#32 reduces_S4096x256_S256 (.inl rfl) rfl) shapeCasts_S256_S1x256

/-- The squared length of a row of 256: `Σ d, σ d · σ d`. -/
def kNormSq (sg : FVec F S1x256 .f32) : FVec F S1x1 .f32 :=
  shapeCast S1x1 (multiReduction .add [1] S1 (mulf sg sg) 0x00000000#32 reduces_S1x256_S1 (.inl rfl) rfl) shapeCasts_S1_S1x1

/-- The squash's numerator `q / (1 + q)` of a squared length `q`. -/
def kSquashNum (q : FVec F S1x1 .f32) : FVec F S1x1 .f32 :=
  divf q (addf (broadcast S1x1 (Scalar.ofBits .f32 0x3F800000#32)) q)

/-- The squash's denominator `√q + ε`. -/
def kSquashDen (q : FVec F S1x1 .f32) : FVec F S1x1 .f32 :=
  addf (sqrt q) (broadcast S1x1 (Scalar.ofBits .f32 0x322BCC77#32))

/-- The squash of a row: `(q / (1 + q) / (√q + ε)) · σ` with `q = ‖σ‖²`. -/
def kSquash (sg : FVec F S1x256 .f32) : FVec F S1x256 .f32 :=
  mulf (broadcastTo S1x256 (divf (kSquashNum (kNormSq sg)) (kSquashDen (kNormSq sg))) broadcasts_S1x1_S1x256) sg

/-- The next logits: `b n + Σ d, s d · xm n d`. -/
def kNext (s : FVec F S1x256 .f32) (xm : FVec F S4096x256 .f32) (b : FVec F S4096x1 .f32) : FVec F S4096x1 .f32 :=
  addf b (shapeCast S4096x1 (multiReduction .add [1] S4096 (mulf (broadcastTo S4096x256 s broadcasts_S1x256_S4096x256) xm) 0x00000000#32 reduces_S4096x256_S4096 (.inl rfl) rfl) shapeCasts_S4096_S4096x1)

/-- One step's squashed row, from the weights, the block and the logits. -/
def kS (mk : FVec F S4096x1 .f32) (xm : FVec F S4096x256 .f32) (b : FVec F S4096x1 .f32) : FVec F S1x256 .f32 :=
  kSquash (kSigma (kSoftmax (mulf mk b)) xm)

/-- One step's new logits. -/
def kB (mk : FVec F S4096x1 .f32) (xm : FVec F S4096x256 .f32) (b : FVec F S4096x1 .f32) : FVec F S4096x1 .f32 :=
  kNext (kS mk xm b) xm b

/-- The rows' weights as the body holds them: the loaded [1, 4096, 1] block as a column. -/
def kM (a1 : Vec F S1x4096x1 .f32) : FVec F S4096x1 .f32 := shapeCast S4096x1 a1 shapeCasts_S1x4096x1_S4096x1

/-- The block `xm = m · x`. -/
def kXm (a0 : Vec F S1x4096x256 .f32) (a1 : Vec F S1x4096x1 .f32) : FVec F S4096x256 .f32 :=
  mulf (broadcastTo S4096x256 (kM a1) broadcasts_S4096x1_S4096x256) (shapeCast S4096x256 a0 shapeCasts_S1x4096x256_S4096x256)

/-- The zero logits the steps start from. -/
def kB0 : FVec F S4096x1 .f32 := broadcast S4096x1 (Scalar.ofBits .f32 0x00000000#32)

def kB1 (a0 : Vec F S1x4096x256 .f32) (a1 : Vec F S1x4096x1 .f32) : FVec F S4096x1 .f32 := kB (kM a1) (kXm a0 a1) kB0
def kB2 (a0 : Vec F S1x4096x256 .f32) (a1 : Vec F S1x4096x1 .f32) : FVec F S4096x1 .f32 := kB (kM a1) (kXm a0 a1) (kB1 a0 a1)
def kB3 (a0 : Vec F S1x4096x256 .f32) (a1 : Vec F S1x4096x1 .f32) : FVec F S4096x1 .f32 := kB (kM a1) (kXm a0 a1) (kB2 a0 a1)
def kS3 (a0 : Vec F S1x4096x256 .f32) (a1 : Vec F S1x4096x1 .f32) : FVec F S1x256 .f32 := kS (kM a1) (kXm a0 a1) (kB2 a0 a1)

/-- What the body stores in the weights' output block: the softmax of the third logits. -/
def kOutW (a0 : Vec F S1x4096x256 .f32) (a1 : Vec F S1x4096x1 .f32) : FVec F S1x4096x1 .f32 :=
  shapeCast S1x4096x1 (kSoftmax (kB3 a0 a1)) shapeCasts_S4096x1_S1x4096x1

/-- What the body stores in the row output block: the third squashed row. -/
def kOutS (a0 : Vec F S1x4096x256 .f32) (a1 : Vec F S1x4096x1 .f32) : FVec F S1x1x256 .f32 :=
  shapeCast S1x1x256 (kS3 a0 a1) shapeCasts_S1x256_S1x1x256

end Cert.KernelIdeal.Stage

end
-- ==== Proof.RStages.lean ====
/-
  The reference, one routing step at a time, on the whole arrays (64 batches at once).  `xm = m · x`; a step takes the
  softmax of `m · b` along the 4096 rows of each batch, the weighted row sum `σ`, its squash
  `s = (‖σ‖² / (1 + ‖σ‖²) / (‖σ‖ + ε)) · σ` with `‖σ‖ = √(Σ σ²)`, and adds to each logit the inner product of `s`
  with that row of `xm`.  Three steps from `b = 0`; the results are the softmax of the last logits and the last `s`.
  The stages are stated at any float instance.
-/
import proofs.«121942_j26946624815393_1_alg».proof.Proof.Gen.ReferenceIdeal

noncomputable section

namespace Cert.ReferenceIdeal.Stage

open Idealize.ShloMosaic Idealize.SL.Sem Cert.ReferenceIdeal Cert.ReferenceIdeal.Gen

variable {F : FTy → Type} [FloatOps F]

/-- The block `xm = m · x`, the weights broadcast along the 256 features. -/
def rXm (x0 : FVec F S64x4096x256 .f32) (x1 : FVec F S64x4096x1 .f32) : FVec F S64x4096x256 .f32 :=
  mulf (broadcastInDim S64x4096x256 ![0, 1, 2] bcast_S64x4096x1_S64x4096x256_0_1_2 x1) x0

/-- The zero logits the steps start from. -/
def rB0 : FVec F S64x4096x1 .f32 := broadcastInDim S64x4096x1 ![] bcast_S_S64x4096x1 (constant S_ .f32 0x00000000#32)

/-- Each batch's largest logit (the row maximum, joined with `-∞`), per batch. -/
def rMax (u : FVec F S64x4096x1 .f32) : FVec F S64x1 .f32 :=
  maximumf (broadcastInDim S64x1 ![] bcast_S_S64x1 (constant S_ .f32 0xFF800000#32))
    (Host.reduce FloatOps.maximumf u (constant S_ .f32 0xFF800000#32) reducesTo_S64x4096x1_S64x1_d1 h_S_)

/-- A per-batch scalar spread back along the rows. -/
def rSpread (v : FVec F S64x1 .f32) : FVec F S64x4096x1 .f32 :=
  broadcastInDim S64x4096x1 ![0, 1, 2] bcast_S64x1x1_S64x4096x1_0_1_2 (broadcastInDim S64x1x1 ![0, 2] bcast_S64x1_S64x1x1_0_2 v)

/-- `exp (u - max u)`. -/
def rExp (u : FVec F S64x4096x1 .f32) : FVec F S64x4096x1 .f32 := Host.exp (subf u (rSpread (rMax u)))

/-- The softmax along the rows of each batch. -/
def rSoftmax (u : FVec F S64x4096x1 .f32) : FVec F S64x4096x1 .f32 :=
  Host.divf (rExp u) (rSpread (Host.reduceAdd (rExp u) (constant S_ .f32 0x00000000#32) reducesTo_S64x4096x1_S64x1_d1 h_S_))

/-- The weighted sum of the rows: `σ c d = Σ n, w c n · xm c n d`. -/
def rSigma (w : FVec F S64x4096x1 .f32) (xm : FVec F S64x4096x256 .f32) : FVec F S64x1x256 .f32 :=
  broadcastInDim S64x1x256 ![0, 2] bcast_S64x256_S64x1x256_0_2
    (Host.reduceAdd (mulf (broadcastInDim S64x4096x256 ![0, 1, 2] bcast_S64x4096x1_S64x4096x256_0_1_2 w) xm)
      (constant S_ .f32 0x00000000#32) reducesTo_S64x4096x256_S64x256_d1 h_S_)

/-- The length of each batch's row: `√(Σ d, σ c d · σ c d)`. -/
def rNorm (sg : FVec F S64x1x256 .f32) : FVec F S64x1x1 .f32 :=
  Host.sqrt (broadcastInDim S64x1x1 ![0, 1] bcast_S64x1_S64x1x1_0_1
    (Host.reduceAdd (mulf sg sg) (constant S_ .f32 0x00000000#32) reducesTo_S64x1x256_S64x1_d2 h_S_))

/-- The squash's factor `‖σ‖² / (1 + ‖σ‖²) / (‖σ‖ + ε)` of a length. -/
def rScale (nrm : FVec F S64x1x1 .f32) : FVec F S64x1x1 .f32 :=
  Host.divf (Host.divf (mulf nrm nrm) (addf (broadcastInDim S64x1x1 ![] bcast_S_S64x1x1 (constant S_ .f32 0x3F800000#32)) (mulf nrm nrm)))
    (addf nrm (broadcastInDim S64x1x1 ![] bcast_S_S64x1x1 (constant S_ .f32 0x322BCC77#32)))

/-- The squash of each batch's row. -/
def rSquash (sg : FVec F S64x1x256 .f32) : FVec F S64x1x256 .f32 :=
  mulf (broadcastInDim S64x1x256 ![0, 1, 2] bcast_S64x1x1_S64x1x256_0_1_2 (rScale (rNorm sg))) sg

/-- The next logits: `b c n + Σ d, s c d · xm c n d`. -/
def rNext (s : FVec F S64x1x256 .f32) (xm : FVec F S64x4096x256 .f32) (b : FVec F S64x4096x1 .f32) : FVec F S64x4096x1 .f32 :=
  addf b (broadcastInDim S64x4096x1 ![0, 1] bcast_S64x4096_S64x4096x1_0_1
    (Host.reduceAdd (mulf (broadcastInDim S64x4096x256 ![0, 1, 2] bcast_S64x1x256_S64x4096x256_0_1_2 s) xm)
      (constant S_ .f32 0x00000000#32) reducesTo_S64x4096x256_S64x4096_d2 h_S_))

/-- One step's squashed rows, from the weights, the block and the logits. -/
def rS (x1 : FVec F S64x4096x1 .f32) (xm : FVec F S64x4096x256 .f32) (b : FVec F S64x4096x1 .f32) : FVec F S64x1x256 .f32 :=
  rSquash (rSigma (rSoftmax (mulf x1 b)) xm)

/-- One step's new logits. -/
def rB (x1 : FVec F S64x4096x1 .f32) (xm : FVec F S64x4096x256 .f32) (b : FVec F S64x4096x1 .f32) : FVec F S64x4096x1 .f32 :=
  rNext (rS x1 xm b) xm b

def rB1 (x0 : FVec F S64x4096x256 .f32) (x1 : FVec F S64x4096x1 .f32) : FVec F S64x4096x1 .f32 := rB x1 (rXm x0 x1) rB0
def rB2 (x0 : FVec F S64x4096x256 .f32) (x1 : FVec F S64x4096x1 .f32) : FVec F S64x4096x1 .f32 := rB x1 (rXm x0 x1) (rB1 x0 x1)
def rB3 (x0 : FVec F S64x4096x256 .f32) (x1 : FVec F S64x4096x1 .f32) : FVec F S64x4096x1 .f32 := rB x1 (rXm x0 x1) (rB2 x0 x1)
def rS3 (x0 : FVec F S64x4096x256 .f32) (x1 : FVec F S64x4096x1 .f32) : FVec F S64x1x256 .f32 := rS x1 (rXm x0 x1) (rB2 x0 x1)

/-- The first result, [64, 4096]: the softmax of the third logits. -/
def rOutW (x0 : FVec F S64x4096x256 .f32) (x1 : FVec F S64x4096x1 .f32) : FVec F S64x4096 .f32 :=
  shapeCast S64x4096 (rSoftmax (rB3 x0 x1)) shapeCasts_S64x4096x1_S64x4096

/-- The second result, [64, 256]: the third squashed rows. -/
def rOutS (x0 : FVec F S64x4096x256 .f32) (x1 : FVec F S64x4096x1 .f32) : FVec F S64x256 .f32 :=
  shapeCast S64x256 (rS3 x0 x1) shapeCasts_S64x1x256_S64x256

end Cert.ReferenceIdeal.Stage

end
-- ==== Proof.Rel.lean ====
/-
  How one batch of the kernel sits in the reference's arrays.  The kernel's body works on batch `c` alone: a column of
  4096 logits or weights, a row of 256 features, a 4096 × 256 block; the reference holds all 64 batches at once.  The
  three relations say that a kernel value is batch `c`'s slice of a reference array, entry by entry; every stage of a
  routing step carries them from its operands to its result.
-/
import proofs.«121942_j26946624815393_1_alg».proof.Proof.KStages
import proofs.«121942_j26946624815393_1_alg».proof.Proof.RStages
import Idealize.ShloMosaic.Lib.ValueIdx
import Idealize.ShloMosaic.PureOps.Ideal

noncomputable section

namespace Cert.Bridge

open Idealize.ShloMosaic Idealize.ShloMosaic.ValueIdx

/-- The kernel's column is batch `c`'s column of the reference's [64, 4096, 1] array. -/
def RelCol (c : Fin 64) (k : FVec Ideal Cert.KernelIdeal.S4096x1 .f32) (R : FVec Ideal Cert.ReferenceIdeal.S64x4096x1 .f32) : Prop :=
  ∀ n : Fin 4096, k (ix2 n (0 : Fin 1)) = R (ix3 c n (0 : Fin 1))

/-- The kernel's row is batch `c`'s row of the reference's [64, 1, 256] array. -/
def RelRow (c : Fin 64) (k : FVec Ideal Cert.KernelIdeal.S1x256 .f32) (R : FVec Ideal Cert.ReferenceIdeal.S64x1x256 .f32) : Prop :=
  ∀ d : Fin 256, k (ix2 (0 : Fin 1) d) = R (ix3 c (0 : Fin 1) d)

/-- The kernel's block is batch `c`'s block of the reference's [64, 4096, 256] array. -/
def RelBlk (c : Fin 64) (k : FVec Ideal Cert.KernelIdeal.S4096x256 .f32) (R : FVec Ideal Cert.ReferenceIdeal.S64x4096x256 .f32) : Prop :=
  ∀ (n : Fin 4096) (d : Fin 256), k (ix2 n d) = R (ix3 c n d)

end Cert.Bridge

end
-- ==== Proof.RelSoftmax.lean ====
/-
  The softmax of a column, the product of two columns, the zero logits, the weights and the block m · x carry batch c's slice from the kernel's value to the reference's.
-/
import proofs.«121942_j26946624815393_1_alg».proof.Proof.Rel
import Idealize.ShloMosaic.Lib.Pipeline.Value
import Idealize.ShloMosaic.PureOps.Ideal.Laws

noncomputable section

namespace Cert.Bridge

open Idealize.ShloMosaic Idealize.ShloMosaic.ValueIdx Cert.KernelIdeal.Stage Cert.ReferenceIdeal.Stage

/-- Entry by entry the product of two columns is the product of the entries, on either side; so the products of
    related columns are related. -/
theorem mul_rel {c : Fin 64} {a b : FVec Ideal Cert.KernelIdeal.S4096x1 .f32} {A B : FVec Ideal Cert.ReferenceIdeal.S64x4096x1 .f32}
    (ha : RelCol c a A) (hb : RelCol c b B) : RelCol c (mulf a b) (mulf A B) := by
  intro n
  rw [mulf_apply, mulf_apply, ha n, hb n]

/-- Both sides start from the constant zero: every entry is the value of the all-zero word. -/
theorem b0_rel (c : Fin 64) : RelCol c (kB0 (F := Ideal)) (rB0 (F := Ideal)) := by
  intro n
  unfold kB0 rB0
  rw [broadcastInDim_apply _ Cert.ReferenceIdeal.Gen.bcast_S_S64x4096x1 _ (ix3 c n (0 : Fin 1)) ix0 (fun a => a.elim0)]
  rfl

/-- The weights' column is the loaded [1, 4096, 1] block re-read as [4096, 1]: row n of the column sits at the same
    row-major position as (0, n, 0) of the block. -/
theorem m_rel {c : Fin 64} (a1 : Vec Ideal Cert.KernelIdeal.S1x4096x1 .f32) (x1 : FVec Ideal Cert.ReferenceIdeal.S64x4096x1 .f32)
    (h1 : ∀ n : Fin 4096, a1 (ix3 (0 : Fin 1) n (0 : Fin 1)) = x1 (ix3 c n (0 : Fin 1))) : RelCol c (kM a1) x1 := by
  intro n
  unfold kM
  rw [shapeCast_apply a1 _ (ix2 n (0 : Fin 1)) (ix3 (0 : Fin 1) n (0 : Fin 1)) (by
    rw [Shape.rowMajor_val_three, Shape.rowMajor_val_two]
    show (0 * 4096 + n.val) * 1 + 0 = n.val * 1 + 0
    omega)]
  exact h1 n

/-- The block m · x at (n, d): the weight of row n (the column spread along the 256 features) times the loaded block's
    entry (0, n, d); the reference's is the weight (c, n, 0) spread along the features times x at (c, n, d). -/
theorem xm_rel {c : Fin 64} (a0 : Vec Ideal Cert.KernelIdeal.S1x4096x256 .f32) (a1 : Vec Ideal Cert.KernelIdeal.S1x4096x1 .f32)
    (x0 : FVec Ideal Cert.ReferenceIdeal.S64x4096x256 .f32) (x1 : FVec Ideal Cert.ReferenceIdeal.S64x4096x1 .f32)
    (h0 : ∀ (n : Fin 4096) (d : Fin 256), a0 (ix3 (0 : Fin 1) n d) = x0 (ix3 c n d))
    (h1 : ∀ n : Fin 4096, a1 (ix3 (0 : Fin 1) n (0 : Fin 1)) = x1 (ix3 c n (0 : Fin 1))) : RelBlk c (kXm a0 a1) (rXm x0 x1) := by
  intro n d
  unfold kXm rXm
  rw [mulf_apply, mulf_apply,
    broadcastTo_apply (kM a1) _ (ix2 n d) (ix2 n (0 : Fin 1)) (fun a => match a with
      | ⟨0, _⟩ => rfl
      | ⟨1, _⟩ => rfl),
    shapeCast_apply a0 _ (ix2 n d) (ix3 (0 : Fin 1) n d) (by
      rw [Shape.rowMajor_val_three, Shape.rowMajor_val_two]
      show (0 * 4096 + n.val) * 256 + d.val = n.val * 256 + d.val
      omega),
    broadcastInDim_apply _ Cert.ReferenceIdeal.Gen.bcast_S64x4096x1_S64x4096x256_0_1_2 x1 (ix3 c n d) (ix3 c n (0 : Fin 1)) (fun a => match a with
      | ⟨0, _⟩ => rfl
      | ⟨1, _⟩ => rfl
      | ⟨2, _⟩ => rfl),
    m_rel a1 x1 h1 n, h0 n d]

/-! ## The softmax of a column

Both sides compute, down the 4096 rows of one batch, `exp (u n - M) / Σ n', exp (u n' - M)` with `M` the fold of `max`
from `-∞`'s word over the rows.  Each side is first read at a row in that closed form; the two forms are then equal
term by term when the two columns are. -/

/-- The largest entry of a column of 4096 extended reals, as a fold of `max` from the value of `-∞`'s word. -/
private def colMax (f : Fin 4096 → EReal) : EReal :=
  (Finset.univ : Finset (Fin 4096)).fold max (Ideal.ofBits .f32 0xFF800000#32) f

/-- The closed form of the softmax at row `n` of a column `f`. -/
private def colSoftmax (f : Fin 4096 → EReal) (n : Fin 4096) : EReal :=
  Ideal.div (Ideal.exp (f n - colMax f)) (∑ n' : Fin 4096, Ideal.exp (f n' - colMax f))

/-- Two columns equal row by row have the same closed form. -/
private theorem colSoftmax_congr {f g : Fin 4096 → EReal} (h : ∀ n, f n = g n) (n : Fin 4096) :
    colSoftmax f n = colSoftmax g n := by
  rw [show f = g from funext h]

/-- In a [4096, 1] column reduced along its rows, the source index over the one result index with row `n'` inserted
    is (n', 0). -/
private theorem lift_col (h : Cert.KernelIdeal.S4096x1.Reduces [0] Cert.KernelIdeal.S1) (n' : Fin 4096) :
    h.lift (ix1 (0 : Fin 1)) n' = ix2 n' (0 : Fin 1) := by
  funext a
  apply Fin.ext
  match a with
  | ⟨0, _⟩ => rfl
  | ⟨1, _⟩ => rfl

/-- In a [64, 4096, 1] array reduced along its rows, the source index over (c, 0) with row `n'` inserted is (c, n', 0). -/
private theorem lift_batch (h : Cert.ReferenceIdeal.S64x4096x1.Reduces [1] Cert.ReferenceIdeal.S64x1) (c : Fin 64) (n' : Fin 4096) :
    h.lift (ix2 c (0 : Fin 1)) n' = ix3 c n' (0 : Fin 1) := by
  funext a
  apply Fin.ext
  match a with
  | ⟨0, _⟩ => rfl
  | ⟨1, _⟩ => rfl
  | ⟨2, _⟩ => rfl

/-- A one-entry vector re-read as [1, 1] and spread down the 4096 rows has that entry at every row. -/
private theorem kSpread_apply {α : Type} (v : Cert.KernelIdeal.S1.Idx → α) (n : Fin 4096) :
    broadcastTo Cert.KernelIdeal.S4096x1 (shapeCast Cert.KernelIdeal.S1x1 v Cert.KernelIdeal.Gen.shapeCasts_S1_S1x1)
      Cert.KernelIdeal.Gen.broadcasts_S1x1_S4096x1 (ix2 n (0 : Fin 1)) = v (ix1 (0 : Fin 1)) := by
  rw [broadcastTo_apply _ _ (ix2 n (0 : Fin 1)) (ix2 (0 : Fin 1) (0 : Fin 1)) (fun a => match a with
      | ⟨0, _⟩ => rfl
      | ⟨1, _⟩ => rfl),
    shapeCast_apply v _ (ix2 (0 : Fin 1) (0 : Fin 1)) (ix1 (0 : Fin 1)) (by
      rw [Shape.rowMajor_val_one, Shape.rowMajor_val_two]
      rfl)]

/-- The kernel's maximum down the rows is the fold of `max` over the column's entries. -/
private theorem kMax_apply (k : FVec Ideal Cert.KernelIdeal.S4096x1 .f32) (h : Cert.KernelIdeal.S4096x1.Reduces [0] Cert.KernelIdeal.S1)
    (hφ : FKind.Formats .f32) (hacc : (0xFF800000#32 : BitVec 32) = FKind.maximumf.neutral .f32 hφ) :
    multiReduction .maximumf [0] Cert.KernelIdeal.S1 k 0xFF800000#32 h hφ hacc (ix1 (0 : Fin 1))
      = colMax fun n' => k (ix2 n' (0 : Fin 1)) := by
  rw [Ideal.multiReduction_maximumf_single]
  exact Finset.fold_congr fun n' _ => congrArg k (lift_col h n')

/-- The kernel's sum down the rows is the sum of the column's entries. -/
private theorem kSum_apply (v : FVec Ideal Cert.KernelIdeal.S4096x1 .f32) (h : Cert.KernelIdeal.S4096x1.Reduces [0] Cert.KernelIdeal.S1)
    (hφ : FKind.Formats .f32) (hacc : (0x00000000#32 : BitVec 32) = FKind.add.neutral .f32 hφ) :
    multiReduction .add [0] Cert.KernelIdeal.S1 v 0x00000000#32 h hφ hacc (ix1 (0 : Fin 1))
      = ∑ n' : Fin 4096, v (ix2 n' (0 : Fin 1)) := by
  rw [Ideal.multiReduction_add_single]
  exact Finset.sum_congr rfl fun n' _ => congrArg v (lift_col h n')

/-- The kernel's softmax expression at row `n`, for any proofs of its side conditions, in closed form: the subtracted
    value is the column's maximum at every row, the divisor the sum of the exponentials down the rows. -/
private theorem kSoftmax_form (k : FVec Ideal Cert.KernelIdeal.S4096x1 .f32) (h : Cert.KernelIdeal.S4096x1.Reduces [0] Cert.KernelIdeal.S1)
    (hφ : FKind.Formats .f32) (hmax : (0xFF800000#32 : BitVec 32) = FKind.maximumf.neutral .f32 hφ)
    (hadd : (0x00000000#32 : BitVec 32) = FKind.add.neutral .f32 hφ) (n : Fin 4096) :
    divf (exp (subf k (broadcastTo Cert.KernelIdeal.S4096x1 (shapeCast Cert.KernelIdeal.S1x1
        (multiReduction .maximumf [0] Cert.KernelIdeal.S1 k 0xFF800000#32 h hφ hmax)
        Cert.KernelIdeal.Gen.shapeCasts_S1_S1x1) Cert.KernelIdeal.Gen.broadcasts_S1x1_S4096x1)))
      (broadcastTo Cert.KernelIdeal.S4096x1 (shapeCast Cert.KernelIdeal.S1x1 (multiReduction .add [0] Cert.KernelIdeal.S1
        (exp (subf k (broadcastTo Cert.KernelIdeal.S4096x1 (shapeCast Cert.KernelIdeal.S1x1
          (multiReduction .maximumf [0] Cert.KernelIdeal.S1 k 0xFF800000#32 h hφ hmax)
          Cert.KernelIdeal.Gen.shapeCasts_S1_S1x1) Cert.KernelIdeal.Gen.broadcasts_S1x1_S4096x1)))
        0x00000000#32 h hφ hadd) Cert.KernelIdeal.Gen.shapeCasts_S1_S1x1) Cert.KernelIdeal.Gen.broadcasts_S1x1_S4096x1)
      (ix2 n (0 : Fin 1))
      = colSoftmax (fun n' => k (ix2 n' (0 : Fin 1))) n := by
  have e : ∀ m : Fin 4096,
      exp (subf k (broadcastTo Cert.KernelIdeal.S4096x1 (shapeCast Cert.KernelIdeal.S1x1
        (multiReduction .maximumf [0] Cert.KernelIdeal.S1 k 0xFF800000#32 h hφ hmax)
        Cert.KernelIdeal.Gen.shapeCasts_S1_S1x1) Cert.KernelIdeal.Gen.broadcasts_S1x1_S4096x1)) (ix2 m (0 : Fin 1))
        = Ideal.exp (k (ix2 m (0 : Fin 1)) - colMax fun n' => k (ix2 n' (0 : Fin 1))) := by
    intro m
    show Ideal.exp (k (ix2 m (0 : Fin 1)) - _) = _
    rw [kSpread_apply, kMax_apply]
  unfold colSoftmax
  rw [divf_apply, kSpread_apply, kSum_apply, e n]
  exact congrArg _ (Finset.sum_congr rfl fun m _ => e m)

/-- The kernel's softmax at row `n` in closed form. -/
private theorem kSoftmax_apply (k : FVec Ideal Cert.KernelIdeal.S4096x1 .f32) (n : Fin 4096) :
    kSoftmax k (ix2 n (0 : Fin 1)) = colSoftmax (fun n' => k (ix2 n' (0 : Fin 1))) n :=
  kSoftmax_form k _ _ _ _ n

/-- A per-batch value spread back along the rows has batch `c`'s value at every row of batch `c`. -/
private theorem rSpread_apply (v : FVec Ideal Cert.ReferenceIdeal.S64x1 .f32) (c : Fin 64) (n : Fin 4096) :
    rSpread v (ix3 c n (0 : Fin 1)) = v (ix2 c (0 : Fin 1)) := by
  unfold rSpread
  rw [broadcastInDim_apply _ Cert.ReferenceIdeal.Gen.bcast_S64x1x1_S64x4096x1_0_1_2 _ (ix3 c n (0 : Fin 1)) (ix3 c (0 : Fin 1) (0 : Fin 1))
      (fun a => match a with
        | ⟨0, _⟩ => rfl
        | ⟨1, _⟩ => rfl
        | ⟨2, _⟩ => rfl),
    broadcastInDim_apply _ Cert.ReferenceIdeal.Gen.bcast_S64x1_S64x1x1_0_2 v (ix3 c (0 : Fin 1) (0 : Fin 1)) (ix2 c (0 : Fin 1))
      (fun a => match a with
        | ⟨0, _⟩ => rfl
        | ⟨1, _⟩ => rfl)]

/-- The reference's per-batch maximum is the same fold of `max` over batch `c`'s column: joining the fold once more
    with the value it starts from changes nothing, that value being below the fold. -/
private theorem rMax_apply (R : FVec Ideal Cert.ReferenceIdeal.S64x4096x1 .f32) (c : Fin 64) :
    rMax R (ix2 c (0 : Fin 1)) = colMax fun n' => R (ix3 c n' (0 : Fin 1)) := by
  have h : Cert.ReferenceIdeal.S64x4096x1.Reduces [1] Cert.ReferenceIdeal.S64x1 := by decide
  unfold rMax
  rw [maximumf_apply, Host.reduce_eq_fold_single _ _ _ _ h,
    broadcastInDim_apply _ Cert.ReferenceIdeal.Gen.bcast_S_S64x1 _ (ix2 c (0 : Fin 1)) ix0 (fun a => a.elim0)]
  show max (Ideal.ofBits .f32 0xFF800000#32)
      (Finset.univ.fold max (Ideal.ofBits .f32 0xFF800000#32) (R ∘ h.lift (ix2 c (0 : Fin 1)))) = _
  refine Eq.trans (max_eq_right ((Finset.le_fold_max (Ideal.ofBits .f32 0xFF800000#32)).mpr (Or.inl le_rfl))) ?_
  exact Finset.fold_congr fun n' _ => congrArg R (lift_batch h c n')

/-- The reference's `exp (u - max u)` at (c, n, 0). -/
private theorem rExp_apply (R : FVec Ideal Cert.ReferenceIdeal.S64x4096x1 .f32) (c : Fin 64) (n : Fin 4096) :
    rExp R (ix3 c n (0 : Fin 1))
      = Ideal.exp (R (ix3 c n (0 : Fin 1)) - colMax fun n' => R (ix3 c n' (0 : Fin 1))) := by
  unfold rExp
  show Ideal.exp (R (ix3 c n (0 : Fin 1)) - rSpread (rMax R) (ix3 c n (0 : Fin 1))) = _
  rw [rSpread_apply, rMax_apply]

/-- The reference's softmax at (c, n, 0) in closed form: the host's sum down the rows starts from zero. -/
private theorem rSoftmax_apply (R : FVec Ideal Cert.ReferenceIdeal.S64x4096x1 .f32) (c : Fin 64) (n : Fin 4096) :
    rSoftmax R (ix3 c n (0 : Fin 1)) = colSoftmax (fun n' => R (ix3 c n' (0 : Fin 1))) n := by
  have h : Cert.ReferenceIdeal.S64x4096x1.Reduces [1] Cert.ReferenceIdeal.S64x1 := by decide
  unfold rSoftmax colSoftmax
  show Ideal.div (rExp R (ix3 c n (0 : Fin 1)))
      (rSpread (Host.reduceAdd (rExp R) (constant Cert.ReferenceIdeal.S_ .f32 0x00000000#32)
        Cert.ReferenceIdeal.Gen.reducesTo_S64x4096x1_S64x1_d1 Cert.ReferenceIdeal.Gen.h_S_) (ix3 c n (0 : Fin 1))) = _
  rw [rSpread_apply, rExp_apply]
  show Ideal.div _ (Ideal.hostReduceAdd Cert.ReferenceIdeal.Gen.reducesTo_S64x4096x1_S64x1_d1 (rExp R)
      (Ideal.ofBits .f32 0x00000000#32) (ix2 c (0 : Fin 1))) = _
  rw [Ideal.hostReduceAdd_single _ h, Ideal.ofBits_zero_f32, zero_add]
  exact congrArg _ (Finset.sum_congr rfl fun m _ => (congrArg (rExp R) (lift_batch h c m)).trans (rExp_apply R c m))

/-- The softmax carries the relation: each side at a row of batch `c` is the closed form of its column, and the two
    columns are equal row by row. -/
theorem softmax_rel {c : Fin 64} {k : FVec Ideal Cert.KernelIdeal.S4096x1 .f32} {R : FVec Ideal Cert.ReferenceIdeal.S64x4096x1 .f32}
    (h : RelCol c k R) : RelCol c (kSoftmax k) (rSoftmax R) := by
  intro n
  rw [kSoftmax_apply, rSoftmax_apply]
  exact colSoftmax_congr h n

end Cert.Bridge

end
-- ==== Proof.RelSums.lean ====
/-
  The weighted row sum and the next logits carry batch c's slice from the kernel's value to the reference's: each is a sum over one axis, the same sum on both sides.
-/
import proofs.«121942_j26946624815393_1_alg».proof.Proof.Rel
import Idealize.ShloMosaic.Lib.Pipeline.Value
import Idealize.ShloMosaic.PureOps.Ideal.Laws

noncomputable section

namespace Cert.Bridge

open Idealize.ShloMosaic Idealize.ShloMosaic.ValueIdx Cert.KernelIdeal.Stage Cert.ReferenceIdeal.Stage

/-- The kernel's weighted row sum at feature `d`: the sum over the 4096 rows of the row's weight times the block's
    entry.  The column of weights is spread along the features, multiplied into the block entry by entry, and the
    rows are summed; the result, a vector of 256, is laid out as a row. -/
private theorem kSigma_apply (w : FVec Ideal Cert.KernelIdeal.S4096x1 .f32) (xk : FVec Ideal Cert.KernelIdeal.S4096x256 .f32) (d : Fin 256) :
    kSigma w xk (ix2 (0 : Fin 1) d) = ∑ n : Fin 4096, w (ix2 n (0 : Fin 1)) * xk (ix2 n d) := by
  unfold kSigma
  rw [shapeCast_apply _ Cert.KernelIdeal.Gen.shapeCasts_S256_S1x256 (ix2 (0 : Fin 1) d) (ix1 d)
    (by rewrite [Shape.rowMajor_val_one, Shape.rowMajor_val_two]; show d.val = 0 * 256 + d.val; omega)]
  refine (Ideal.multiReduction_add_single _ _ Cert.KernelIdeal.Gen.reduces_S4096x256_S256 _ _ (ix1 d)).trans ?_
  refine Finset.sum_congr rfl fun (n : Fin 4096) _ => ?_
  have e : Cert.KernelIdeal.Gen.reduces_S4096x256_S256.lift (ix1 d) n = ix2 n d :=
    funext fun a => Fin.ext (by match a with | ⟨0, _⟩ => rfl | ⟨1, _⟩ => rfl)
  rw [e, mulf_apply]
  rw [broadcastTo_apply w Cert.KernelIdeal.Gen.broadcasts_S4096x1_S4096x256 (ix2 n d) (ix2 n (0 : Fin 1)) (fun a => match a with
    | ⟨0, _⟩ => by show n.val = if (4096 : Nat) = 1 then 0 else n.val; rw [if_neg (by decide)]
    | ⟨1, _⟩ => by show (0 : Nat) = if (1 : Nat) = 1 then 0 else d.val; rw [if_pos rfl])]

/-- The reference's weighted row sum at batch `c` and feature `d`: the same sum over the 4096 rows, of batch `c`'s
    weights times batch `c`'s block.  The initial value of the host's sum is zero. -/
private theorem rSigma_apply (W : FVec Ideal Cert.ReferenceIdeal.S64x4096x1 .f32) (XR : FVec Ideal Cert.ReferenceIdeal.S64x4096x256 .f32) (c : Fin 64) (d : Fin 256) :
    rSigma W XR (ix3 c (0 : Fin 1) d) = ∑ n : Fin 4096, W (ix3 c n (0 : Fin 1)) * XR (ix3 c n d) := by
  unfold rSigma
  rw [broadcastInDim_apply _ Cert.ReferenceIdeal.Gen.bcast_S64x256_S64x1x256_0_2 _ (ix3 c (0 : Fin 1) d) (ix2 c d) (fun a => match a with
    | ⟨0, _⟩ => by show c.val = if (64 : Nat) = 1 then 0 else c.val; rw [if_neg (by decide)]
    | ⟨1, _⟩ => by show d.val = if (256 : Nat) = 1 then 0 else d.val; rw [if_neg (by decide)])]
  simp only [Host.reduceAdd, Ideal.hostReduceAdd_def]
  rw [Ideal.hostReduceAdd_single Cert.ReferenceIdeal.Gen.reducesTo_S64x4096x256_S64x256_d1 (by decide)]
  rw [constant_apply, Ideal.ofBits_zero_f32, zero_add]
  refine Finset.sum_congr rfl fun (n : Fin 4096) _ => ?_
  have e : (by decide : Cert.ReferenceIdeal.S64x4096x256.Reduces [1] Cert.ReferenceIdeal.S64x256).lift (ix2 c d) n = ix3 c n d :=
    funext fun a => Fin.ext (by match a with | ⟨0, _⟩ => rfl | ⟨1, _⟩ => rfl | ⟨2, _⟩ => rfl)
  rw [e, mulf_apply]
  rw [broadcastInDim_apply _ Cert.ReferenceIdeal.Gen.bcast_S64x4096x1_S64x4096x256_0_1_2 W (ix3 c n d) (ix3 c n (0 : Fin 1)) (fun a => match a with
    | ⟨0, _⟩ => by show c.val = if (64 : Nat) = 1 then 0 else c.val; rw [if_neg (by decide)]
    | ⟨1, _⟩ => by show n.val = if (4096 : Nat) = 1 then 0 else n.val; rw [if_neg (by decide)]
    | ⟨2, _⟩ => by show (0 : Nat) = if (1 : Nat) = 1 then 0 else d.val; rw [if_pos rfl])]

/-- The weighted row sum carries the slice: if the kernel's weights and block are batch `c`'s, so is its row of sums,
    the two sums agreeing term by term. -/
theorem sigma_rel {c : Fin 64} {w : FVec Ideal Cert.KernelIdeal.S4096x1 .f32} {W : FVec Ideal Cert.ReferenceIdeal.S64x4096x1 .f32}
    {xk : FVec Ideal Cert.KernelIdeal.S4096x256 .f32} {XR : FVec Ideal Cert.ReferenceIdeal.S64x4096x256 .f32}
    (hw : RelCol c w W) (hx : RelBlk c xk XR) : RelRow c (kSigma w xk) (rSigma W XR) := by
  intro d
  rw [kSigma_apply, rSigma_apply]
  exact Finset.sum_congr rfl fun n _ => by rw [hw n, hx n d]

/-- The kernel's next logit at row `n`: the old logit plus the inner product, over the 256 features, of the squashed
    row with that row of the block. -/
private theorem kNext_apply (s : FVec Ideal Cert.KernelIdeal.S1x256 .f32) (xk : FVec Ideal Cert.KernelIdeal.S4096x256 .f32) (b : FVec Ideal Cert.KernelIdeal.S4096x1 .f32) (n : Fin 4096) :
    kNext s xk b (ix2 n (0 : Fin 1)) = b (ix2 n (0 : Fin 1)) + ∑ d : Fin 256, s (ix2 (0 : Fin 1) d) * xk (ix2 n d) := by
  unfold kNext
  rw [addf_apply]
  rw [shapeCast_apply _ Cert.KernelIdeal.Gen.shapeCasts_S4096_S4096x1 (ix2 n (0 : Fin 1)) (ix1 n)
    (by rewrite [Shape.rowMajor_val_one, Shape.rowMajor_val_two]; show n.val = n.val * 1 + 0; omega)]
  refine congrArg (_ + ·) ((Ideal.multiReduction_add_single _ _ Cert.KernelIdeal.Gen.reduces_S4096x256_S4096 _ _ (ix1 n)).trans ?_)
  refine Finset.sum_congr rfl fun (d : Fin 256) _ => ?_
  have e : Cert.KernelIdeal.Gen.reduces_S4096x256_S4096.lift (ix1 n) d = ix2 n d :=
    funext fun a => Fin.ext (by match a with | ⟨0, _⟩ => rfl | ⟨1, _⟩ => rfl)
  rw [e, mulf_apply]
  rw [broadcastTo_apply s Cert.KernelIdeal.Gen.broadcasts_S1x256_S4096x256 (ix2 n d) (ix2 (0 : Fin 1) d) (fun a => match a with
    | ⟨0, _⟩ => by show (0 : Nat) = if (1 : Nat) = 1 then 0 else n.val; rw [if_pos rfl]
    | ⟨1, _⟩ => by show d.val = if (256 : Nat) = 1 then 0 else d.val; rw [if_neg (by decide)])]

/-- The reference's next logit at batch `c` and row `n`: the old logit plus the same inner product, of batch `c`'s
    squashed row with batch `c`'s row of the block. -/
private theorem rNext_apply (S : FVec Ideal Cert.ReferenceIdeal.S64x1x256 .f32) (XR : FVec Ideal Cert.ReferenceIdeal.S64x4096x256 .f32) (B : FVec Ideal Cert.ReferenceIdeal.S64x4096x1 .f32)
    (c : Fin 64) (n : Fin 4096) :
    rNext S XR B (ix3 c n (0 : Fin 1)) = B (ix3 c n (0 : Fin 1)) + ∑ d : Fin 256, S (ix3 c (0 : Fin 1) d) * XR (ix3 c n d) := by
  unfold rNext
  rw [addf_apply]
  rw [broadcastInDim_apply _ Cert.ReferenceIdeal.Gen.bcast_S64x4096_S64x4096x1_0_1 _ (ix3 c n (0 : Fin 1)) (ix2 c n) (fun a => match a with
    | ⟨0, _⟩ => by show c.val = if (64 : Nat) = 1 then 0 else c.val; rw [if_neg (by decide)]
    | ⟨1, _⟩ => by show n.val = if (4096 : Nat) = 1 then 0 else n.val; rw [if_neg (by decide)])]
  simp only [Host.reduceAdd, Ideal.hostReduceAdd_def]
  rw [Ideal.hostReduceAdd_single Cert.ReferenceIdeal.Gen.reducesTo_S64x4096x256_S64x4096_d2 (by decide)]
  rw [constant_apply, Ideal.ofBits_zero_f32, zero_add]
  refine congrArg (_ + ·) (Finset.sum_congr rfl fun (d : Fin 256) _ => ?_)
  have e : (by decide : Cert.ReferenceIdeal.S64x4096x256.Reduces [2] Cert.ReferenceIdeal.S64x4096).lift (ix2 c n) d = ix3 c n d :=
    funext fun a => Fin.ext (by match a with | ⟨0, _⟩ => rfl | ⟨1, _⟩ => rfl | ⟨2, _⟩ => rfl)
  rw [e, mulf_apply]
  rw [broadcastInDim_apply _ Cert.ReferenceIdeal.Gen.bcast_S64x1x256_S64x4096x256_0_1_2 S (ix3 c n d) (ix3 c (0 : Fin 1) d) (fun a => match a with
    | ⟨0, _⟩ => by show c.val = if (64 : Nat) = 1 then 0 else c.val; rw [if_neg (by decide)]
    | ⟨1, _⟩ => by show (0 : Nat) = if (1 : Nat) = 1 then 0 else n.val; rw [if_pos rfl]
    | ⟨2, _⟩ => by show d.val = if (256 : Nat) = 1 then 0 else d.val; rw [if_neg (by decide)])]

/-- The next logits carry the slice: if the kernel's squashed row, block and logits are batch `c`'s, so are its new
    logits, the old logit and every term of the inner product agreeing. -/
theorem next_rel {c : Fin 64} {s : FVec Ideal Cert.KernelIdeal.S1x256 .f32} {S : FVec Ideal Cert.ReferenceIdeal.S64x1x256 .f32}
    {xk : FVec Ideal Cert.KernelIdeal.S4096x256 .f32} {XR : FVec Ideal Cert.ReferenceIdeal.S64x4096x256 .f32}
    {b : FVec Ideal Cert.KernelIdeal.S4096x1 .f32} {B : FVec Ideal Cert.ReferenceIdeal.S64x4096x1 .f32}
    (hs : RelRow c s S) (hx : RelBlk c xk XR) (hb : RelCol c b B) : RelCol c (kNext s xk b) (rNext S XR B) := by
  intro n
  rw [kNext_apply, rNext_apply, hb n]
  exact congrArg (_ + ·) (Finset.sum_congr rfl fun d _ => by rw [hs d, hx n d])

end Cert.Bridge

end
-- ==== Proof.RelSquash.lean ====
/-
  The squash of a row carries batch c's slice from the kernel's value to the reference's.  The kernel divides q / (1 + q) by √q + ε with q = Σ σ²; the reference takes the length ‖σ‖ = √q first and squares it again: √q · √q = q because q, a sum of squares, is not negative (also at +∞).
-/
import proofs.«121942_j26946624815393_1_alg».proof.Proof.Rel
import Idealize.ShloMosaic.Lib.Pipeline.Value
import Idealize.ShloMosaic.PureOps.Ideal.Laws

noncomputable section

namespace Cert.Bridge

open Idealize.ShloMosaic Idealize.ShloMosaic.ValueIdx Cert.KernelIdeal.Stage Cert.ReferenceIdeal.Stage

/-- The square of an extended real is never negative: (−∞)·(−∞) = (+∞)·(+∞) = +∞, and a real's square is at least 0. -/
private theorem ereal_mul_self_nonneg (x : EReal) : 0 ≤ x * x := by
  induction x using EReal.rec with
  | bot => simp
  | top => simp
  | coe r => exact_mod_cast mul_self_nonneg r

/-- The root of a nonnegative extended real, squared, gives the number back: at +∞ both sides are +∞, and at a real
    r ≥ 0 it is √r · √r = r. -/
private theorem sqrt_mul_self {q : EReal} (hq : 0 ≤ q) : Ideal.sqrt q * Ideal.sqrt q = q := by
  induction q using EReal.rec with
  | bot => exact absurd hq (by simp)
  | top => simp
  | coe r =>
    have hr : 0 ≤ r := by exact_mod_cast hq
    rw [Ideal.sqrt_coe, if_neg (not_lt.mpr hr), ← EReal.coe_mul, Real.mul_self_sqrt hr]

/-- A sum of squares of extended reals is not negative. -/
private theorem sum_sq_nonneg {n : Nat} (f : Fin n → EReal) : 0 ≤ ∑ d : Fin n, f d * f d :=
  Finset.sum_nonneg fun d _ => ereal_mul_self_nonneg (f d)

/-- The kernel's squared length of a row, at its one entry: the sum of the 256 squares. -/
private theorem kNormSq_apply (s : FVec Ideal Cert.KernelIdeal.S1x256 .f32) :
    kNormSq s (ix2 (0 : Fin 1) (0 : Fin 1)) = ∑ d : Fin 256, s (ix2 (0 : Fin 1) d) * s (ix2 (0 : Fin 1) d) := by
  unfold kNormSq
  rw [shapeCast_apply _ _ (ix2 (0 : Fin 1) (0 : Fin 1)) (ix1 (0 : Fin 1)) rfl]
  refine (Ideal.multiReduction_add_single (mulf s s) _ _ _ _ (ix1 (0 : Fin 1))).trans ?_
  show (∑ k : Fin 256, _) = _
  refine Finset.sum_congr rfl fun d _ => ?_
  rw [mulf_apply]
  congr 1 <;>
  · congr 1
    funext a
    refine Fin.ext ?_
    match a with
    | ⟨0, _⟩ => rfl
    | ⟨1, _⟩ => rfl

/-- The kernel's squash at feature d: the factor (q / (1 + q)) / (√q + ε), q the sum of the row's squares, times the
    row's entry. -/
private theorem kSquash_apply (s : FVec Ideal Cert.KernelIdeal.S1x256 .f32) (d : Fin 256) :
    kSquash s (ix2 (0 : Fin 1) d)
      = Ideal.div (Ideal.div (∑ e : Fin 256, s (ix2 (0 : Fin 1) e) * s (ix2 (0 : Fin 1) e))
            (Ideal.ofBits .f32 0x3F800000#32 + ∑ e : Fin 256, s (ix2 (0 : Fin 1) e) * s (ix2 (0 : Fin 1) e)))
          (Ideal.sqrt (∑ e : Fin 256, s (ix2 (0 : Fin 1) e) * s (ix2 (0 : Fin 1) e)) + Ideal.ofBits .f32 0x322BCC77#32)
        * s (ix2 (0 : Fin 1) d) := by
  unfold kSquash
  rw [mulf_apply, broadcastTo_apply _ _ (ix2 (0 : Fin 1) d) (ix2 (0 : Fin 1) (0 : Fin 1)) (fun a => by
    match a with
    | ⟨0, _⟩ => rfl
    | ⟨1, _⟩ => rfl)]
  rw [← kNormSq_apply s]
  rfl

/-- The reference's sum of squares of batch c's row. -/
private theorem rSumSq_apply (S : FVec Ideal Cert.ReferenceIdeal.S64x1x256 .f32) (c : Fin 64)
    (h' : Cert.ReferenceIdeal.S64x1x256.ReducesTo [2] Cert.ReferenceIdeal.S64x1) (hu : 0 < Cert.ReferenceIdeal.S_.numel) :
    Host.reduceAdd (mulf S S) (constant Cert.ReferenceIdeal.S_ .f32 0x00000000#32) h' hu (ix2 c (0 : Fin 1))
      = ∑ d : Fin 256, S (ix3 c (0 : Fin 1) d) * S (ix3 c (0 : Fin 1) d) := by
  have hR : Cert.ReferenceIdeal.S64x1x256.Reduces [2] Cert.ReferenceIdeal.S64x1 := by decide
  show Ideal.hostReduceAdd h' (mulf S S) (Ideal.ofBits .f32 0x00000000#32) (ix2 c (0 : Fin 1)) = _
  rw [Ideal.hostReduceAdd_single h' hR, Ideal.ofBits_zero_f32, zero_add]
  show (∑ k : Fin 256, _) = _
  refine Finset.sum_congr rfl fun d _ => ?_
  rw [mulf_apply]
  congr 1 <;>
  · congr 1
    funext a
    refine Fin.ext ?_
    match a with
    | ⟨0, _⟩ => rfl
    | ⟨1, _⟩ => rfl
    | ⟨2, _⟩ => rfl

/-- The reference's length of batch c's row: the root of the sum of its squares. -/
private theorem rNorm_apply (S : FVec Ideal Cert.ReferenceIdeal.S64x1x256 .f32) (c : Fin 64) :
    rNorm S (ix3 c (0 : Fin 1) (0 : Fin 1)) = Ideal.sqrt (∑ d : Fin 256, S (ix3 c (0 : Fin 1) d) * S (ix3 c (0 : Fin 1) d)) := by
  unfold rNorm
  show Ideal.sqrt (broadcastInDim _ _ _ _ (ix3 c (0 : Fin 1) (0 : Fin 1))) = _
  rw [broadcastInDim_apply _ _ _ (ix3 c (0 : Fin 1) (0 : Fin 1)) (ix2 c (0 : Fin 1)) (fun a => by
    match a with
    | ⟨0, _⟩ => rfl
    | ⟨1, _⟩ => rfl), rSumSq_apply]

/-- The reference's squash at batch c, feature d: the factor ((n · n) / (1 + n · n)) / (n + ε), n the row's length,
    times the row's entry. -/
private theorem rSquash_apply (S : FVec Ideal Cert.ReferenceIdeal.S64x1x256 .f32) (c : Fin 64) (d : Fin 256) :
    rSquash S (ix3 c (0 : Fin 1) d)
      = Ideal.div (Ideal.div (rNorm S (ix3 c (0 : Fin 1) (0 : Fin 1)) * rNorm S (ix3 c (0 : Fin 1) (0 : Fin 1)))
            (Ideal.ofBits .f32 0x3F800000#32 + rNorm S (ix3 c (0 : Fin 1) (0 : Fin 1)) * rNorm S (ix3 c (0 : Fin 1) (0 : Fin 1))))
          (rNorm S (ix3 c (0 : Fin 1) (0 : Fin 1)) + Ideal.ofBits .f32 0x322BCC77#32)
        * S (ix3 c (0 : Fin 1) d) := by
  unfold rSquash
  rw [mulf_apply, broadcastInDim_apply _ _ _ (ix3 c (0 : Fin 1) d) (ix3 c (0 : Fin 1) (0 : Fin 1)) (fun a => by
    match a with
    | ⟨0, _⟩ => rfl
    | ⟨1, _⟩ => rfl
    | ⟨2, _⟩ => rfl)]
  rfl

/-- The squash carries the slice: with the row's entries batch `c`'s, the two sums of squares agree, the reference's
    squared length is that sum again, and the factor and the entry it scales agree. -/
theorem squash_rel {c : Fin 64} {s : FVec Ideal Cert.KernelIdeal.S1x256 .f32} {S : FVec Ideal Cert.ReferenceIdeal.S64x1x256 .f32}
    (h : RelRow c s S) : RelRow c (kSquash s) (rSquash S) := by
  intro d
  have hq : (∑ e : Fin 256, s (ix2 (0 : Fin 1) e) * s (ix2 (0 : Fin 1) e))
      = ∑ e : Fin 256, S (ix3 c (0 : Fin 1) e) * S (ix3 c (0 : Fin 1) e) :=
    Finset.sum_congr rfl fun e _ => by rw [h e]
  rw [kSquash_apply, rSquash_apply, rNorm_apply, sqrt_mul_self (sum_sq_nonneg _), hq, h d]

end Cert.Bridge

end
-- ==== Proof.KPayload.lean ====
/-
  The two stored values of the body are the composed stages: the weights' block holds the softmax of the third logits,
  the row block the third squashed row, each of the loaded blocks.
-/
import proofs.«121942_j26946624815393_1_alg».proof.Proof.Gen.KernelIdeal.Frame
import proofs.«121942_j26946624815393_1_alg».proof.Proof.KStages

noncomputable section

namespace Cert.KernelIdeal.Stage

open Idealize.ShloMosaic Idealize.SL.Sem Cert.KernelIdeal Cert.KernelIdeal.Gen

variable {F : FTy → Type} [FloatOps F]

set_option maxRecDepth 8192 in
theorem out0_2_eq (x0 : Vec F S1x4096x256 .f32) (x1 : Vec F S1x4096x1 .f32) :
    out0_2 x0 x1 = View.canon [⟨r0_1, kOutW (View.ld x0 r0_0) (View.ld x1 r0_1)⟩] := rfl

set_option maxRecDepth 8192 in
theorem out0_3_eq (x0 : Vec F S1x4096x256 .f32) (x1 : Vec F S1x4096x1 .f32) :
    out0_3 x0 x1 = View.canon [⟨r0_2, kOutS (View.ld x0 r0_0) (View.ld x1 r0_1)⟩] := rfl

end Cert.KernelIdeal.Stage

end
-- ==== Proof.KArrays.lean ====
/-
  The kernel's two result arrays as whole-array functions of its arguments.  Grid point `c` (one of 64) stages batch
  `c`'s block of `x` ([1, 4096, 256]) and of `m` ([1, 4096, 1]) and writes back batch `c`'s block of each output; the
  blocks tile the outputs, so entry (c, n) of the weights' result is the body's stored column at n computed from batch
  c's blocks, and entry (c, d) of the row result the stored row at d.  The two reshapes after the call drop the unit axis.
-/
import proofs.«121942_j26946624815393_1_alg».proof.Proof.Gen.KernelIdeal.Frame
import proofs.«121942_j26946624815393_1_alg».proof.Proof.KPayload
import Idealize.ShloMosaic.Lib.Pipeline.Value
import Idealize.ShloMosaic.Lib.ValueIdx
import Idealize.ShloMosaic.Lib.StableHlo.Run

noncomputable section

namespace Cert.KernelIdeal.Arrays

open Idealize.ShloMosaic Idealize.ShloMosaic.TcCoe Idealize.SL.Sem Idealize.ShloMosaic.ValueIdx
open Cert.KernelIdeal Cert.KernelIdeal.Gen Cert.KernelIdeal.Stage

/-- Batch `c`'s block of `x`. -/
def blkX (x0 : FVec Ideal S64x4096x256 .f32) (c : Fin 64) : Vec Ideal S1x4096x256 .f32 :=
  fun y => x0 (ix3 c (⟨(y 1).val, (y 1).isLt⟩ : Fin 4096) (⟨(y 2).val, (y 2).isLt⟩ : Fin 256))

/-- Batch `c`'s block of `m`. -/
def blkM (x1 : FVec Ideal S64x4096x1 .f32) (c : Fin 64) : Vec Ideal S1x4096x1 .f32 :=
  fun y => x1 (ix3 c (⟨(y 1).val, (y 1).isLt⟩ : Fin 4096) (0 : Fin 1))

/-- The weights' result [64, 4096]: entry (c, n) is the stored column at n, of batch c's blocks. -/
def GW (x0 : FVec Ideal S64x4096x256 .f32) (x1 : FVec Ideal S64x4096x1 .f32) : FVec Ideal S64x4096 .f32 :=
  fun j => kOutW (blkX x0 (⟨(j 0).val, (j 0).isLt⟩ : Fin 64)) (blkM x1 (⟨(j 0).val, (j 0).isLt⟩ : Fin 64))
    (ix3 (0 : Fin 1) (⟨(j 1).val, (j 1).isLt⟩ : Fin 4096) (0 : Fin 1))

/-- The row result [64, 256]: entry (c, d) is the stored row at d, of batch c's blocks. -/
def GS (x0 : FVec Ideal S64x4096x256 .f32) (x1 : FVec Ideal S64x4096x1 .f32) : FVec Ideal S64x256 .f32 :=
  fun j => kOutS (blkX x0 (⟨(j 0).val, (j 0).isLt⟩ : Fin 64)) (blkM x1 (⟨(j 0).val, (j 0).isLt⟩ : Fin 64))
    (ix3 (0 : Fin 1) (0 : Fin 1) (⟨(j 1).val, (j 1).isLt⟩ : Fin 256))

/-! ## The results with their unit axes kept -/

/-- The weights' result before its unit axis is dropped, [64, 4096, 1]: entry (c, n, 0) is the stored column at n of
    batch c's blocks. -/
def GW3 (x0 : FVec Ideal S64x4096x256 .f32) (x1 : FVec Ideal S64x4096x1 .f32) : FVec Ideal S64x4096x1 .f32 :=
  fun i => kOutW (blkX x0 (⟨(i 0).val, (i 0).isLt⟩ : Fin 64)) (blkM x1 (⟨(i 0).val, (i 0).isLt⟩ : Fin 64))
    (ix3 (0 : Fin 1) (⟨(i 1).val, (i 1).isLt⟩ : Fin 4096) (0 : Fin 1))

/-- The row result before its unit axis is dropped, [64, 1, 256]: entry (c, 0, d) is the stored row at d of batch c's
    blocks. -/
def GS3 (x0 : FVec Ideal S64x4096x256 .f32) (x1 : FVec Ideal S64x4096x1 .f32) : FVec Ideal S64x1x256 .f32 :=
  fun i => kOutS (blkX x0 (⟨(i 0).val, (i 0).isLt⟩ : Fin 64)) (blkM x1 (⟨(i 0).val, (i 0).isLt⟩ : Fin 64))
    (ix3 (0 : Fin 1) (0 : Fin 1) (⟨(i 2).val, (i 2).isLt⟩ : Fin 256))

/-- Three zero offsets, however spelt. -/
theorem zero3 : (![0, 0, 0] : Fin 3 → Nat) = fun _ => 0 := funext fun a => by fin_cases a <;> rfl

/-- Entry i of the kept-axis weights' result, for i in batch b at row (j 1): the stored column of batch b at j. -/
theorem GW3_at (x0 : FVec Ideal S64x4096x256 .f32) (x1 : FVec Ideal S64x4096x1 .f32) (b : Fin 64)
    (i : S64x4096x1.Idx) (j : S1x4096x1.Idx) (h0 : (i 0).val = b.val) (h1 : (i 1).val = (j 1).val) :
    GW3 x0 x1 i = kOutW (blkX x0 b) (blkM x1 b) j := by
  unfold GW3
  have hb : (⟨(i 0).val, (i 0).isLt⟩ : Fin 64) = b := Fin.ext h0
  rw [hb]
  refine congrArg _ ?_
  rw [eq_ix3 j]
  have j0 : j 0 = (0 : Fin 1) := Fin.ext (Nat.lt_one_iff.mp (j 0).isLt)
  have j2 : j 2 = (0 : Fin 1) := Fin.ext (Nat.lt_one_iff.mp (j 2).isLt)
  have j1 : (⟨(i 1).val, (i 1).isLt⟩ : Fin 4096) = j 1 := Fin.ext h1
  rw [j0, j2, j1]
  rfl

/-- Entry i of the kept-axis row result, for i in batch b at feature (j 2): the stored row of batch b at j. -/
theorem GS3_at (x0 : FVec Ideal S64x4096x256 .f32) (x1 : FVec Ideal S64x4096x1 .f32) (b : Fin 64)
    (i : S64x1x256.Idx) (j : S1x1x256.Idx) (h0 : (i 0).val = b.val) (h2 : (i 2).val = (j 2).val) :
    GS3 x0 x1 i = kOutS (blkX x0 b) (blkM x1 b) j := by
  unfold GS3
  have hb : (⟨(i 0).val, (i 0).isLt⟩ : Fin 64) = b := Fin.ext h0
  rw [hb]
  refine congrArg _ ?_
  rw [eq_ix3 j]
  have j0 : j 0 = (0 : Fin 1) := Fin.ext (Nat.lt_one_iff.mp (j 0).isLt)
  have j1 : j 1 = (0 : Fin 1) := Fin.ext (Nat.lt_one_iff.mp (j 1).isLt)
  have j2 : (⟨(i 2).val, (i 2).isLt⟩ : Fin 256) = j 2 := Fin.ext h2
  rw [j0, j1, j2]
  rfl

/-! ## The staged blocks are the batches' blocks -/

/-- A [1, 4096, 256] block read off x through an embedding that lands in batch b and keeps the row and the feature
    is batch b's block of x. -/
theorem blkX_of_read (X : FVec Ideal S64x4096x256 .f32) (B : Vec Ideal S1x4096x256 .f32) (b : Fin 64)
    (e : S1x4096x256.Idx → S64x4096x256.Idx) (hB : ∀ y, B y = X (e y))
    (e0 : ∀ y, (e y 0).val = b.val) (e1 : ∀ y, (e y 1).val = (y 1).val) (e2 : ∀ y, (e y 2).val = (y 2).val) :
    B = blkX X b := by
  funext y
  rw [hB y]
  unfold blkX
  refine congrArg X ?_
  rw [eq_ix3 (e y)]
  have a0 : e y 0 = b := Fin.ext (e0 y)
  have a1 : e y 1 = (⟨(y 1).val, (y 1).isLt⟩ : Fin 4096) := Fin.ext (e1 y)
  have a2 : e y 2 = (⟨(y 2).val, (y 2).isLt⟩ : Fin 256) := Fin.ext (e2 y)
  rw [a0, a1, a2]
  rfl

/-- A [1, 4096, 1] block read off m through an embedding that lands in batch b and keeps the row is batch b's block
    of m. -/
theorem blkM_of_read (X : FVec Ideal S64x4096x1 .f32) (B : Vec Ideal S1x4096x1 .f32) (b : Fin 64)
    (e : S1x4096x1.Idx → S64x4096x1.Idx) (hB : ∀ y, B y = X (e y))
    (e0 : ∀ y, (e y 0).val = b.val) (e1 : ∀ y, (e y 1).val = (y 1).val) :
    B = blkM X b := by
  funext y
  rw [hB y]
  unfold blkM
  refine congrArg X ?_
  rw [eq_ix3 (e y)]
  have a0 : e y 0 = b := Fin.ext (e0 y)
  have a1 : e y 1 = (⟨(y 1).val, (y 1).isLt⟩ : Fin 4096) := Fin.ext (e1 y)
  have a2 : e y 2 = (0 : Fin 1) := Fin.ext (Nat.lt_one_iff.mp (e y 2).isLt)
  rw [a0, a1, a2]
  rfl

/-! ## What a grid point writes back -/

section Run

variable (m : (ℓ : Loc nD τ sig) → Buf (Elt Ideal) ℓ) (ρ : Dev nD → PrngReg)

/-- The four index maps over the grid: point t's block index is (t, 0, 0) in every window. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- A grid point as a batch number. -/
def batchOf (t : Fin cfg0.N) : Fin 64 := ⟨t.val, N_0 ▸ t.isLt⟩

/-- The block of x staged at point t is batch t's block of the argument array. -/
theorem stagedX (c : Dev nD) (t : Fin cfg0.N) :
    (iblk m c 0 t : Vec Ideal S1x4096x256 .f32) = blkX (V m c main_arg0) (batchOf t) := by
  obtain ⟨a0, a1, a2, -⟩ := index_facts t
  refine blkX_of_read (V m c main_arg0) _ (batchOf t) (((cfg0.win 0).blk t).view.emb) (fun y => rfl) ?_ ?_ ?_
  · intro y
    show win0_0.index t (0 : Fin 3) * 1 + 1 * (y 0).val = t.val
    have hy : (y 0).val < 1 := (y 0).isLt
    omega
  · intro y
    show win0_0.index t (1 : Fin 3) * 4096 + 1 * (y 1).val = (y 1).val
    omega
  · intro y
    show win0_0.index t (2 : Fin 3) * 256 + 1 * (y 2).val = (y 2).val
    omega

/-- The block of m staged at point t is batch t's block of the argument array. -/
theorem stagedM (c : Dev nD) (t : Fin cfg0.N) :
    (iblk m c 1 t : Vec Ideal S1x4096x1 .f32) = blkM (V m c main_arg1) (batchOf t) := by
  obtain ⟨-, -, -, a0, a1, a2, -⟩ := index_facts t
  refine blkM_of_read (V m c main_arg1) _ (batchOf t) (((cfg0.win 1).blk t).view.emb) (fun y => rfl) ?_ ?_
  · intro y
    show win0_1.index t (0 : Fin 3) * 1 + 1 * (y 0).val = t.val
    have hy : (y 0).val < 1 := (y 0).isLt
    omega
  · intro y
    show win0_1.index t (1 : Fin 3) * 4096 + 1 * (y 1).val = (y 1).val
    omega

/-- What point t writes back to the weights' array is block t of the kept-axis weights' result of the argument arrays. -/
theorem flushedW_eq (c : Dev nD) (t : Fin cfg0.N) :
    (dats m 0 c).flushed 2 t
      = ((cfg0.win 2).blk t).view.read (Elt Ideal) (GW3 (V m c main_arg0) (V m c main_arg1)) := by
  show (cfg0.win 2).cut (grid0.coords t) ((dats m 0 c).after 2 t) = _
  rw [after0_2, out0_2_eq, View.canon_unit_zero zero3]
  simp only [View.ld_unit_zero (S := S1x4096x256) zero3, View.ld_unit_zero (S := S1x4096x1) zero3]
  rw [stagedX m c t, stagedM m c t]
  obtain ⟨-, -, -, -, -, -, a0, a1, a2, -⟩ := index_facts t
  funext j
  show kOutW (blkX (V m c main_arg0) (batchOf t)) (blkM (V m c main_arg1) (batchOf t)) j
    = GW3 (V m c main_arg0) (V m c main_arg1) (((cfg0.win 2).blk t).view.emb j)
  refine (GW3_at _ _ (batchOf t) _ j ?_ ?_).symm
  · show win0_2.index t (0 : Fin 3) * 1 + 1 * (j 0).val = t.val
    have hj : (j 0).val < 1 := (j 0).isLt
    omega
  · show win0_2.index t (1 : Fin 3) * 4096 + 1 * (j 1).val = (j 1).val
    omega

/-- What point t writes back to the row array is block t of the kept-axis row result of the argument arrays. -/
theorem flushedS_eq (c : Dev nD) (t : Fin cfg0.N) :
    (dats m 0 c).flushed 3 t
      = ((cfg0.win 3).blk t).view.read (Elt Ideal) (GS3 (V m c main_arg0) (V m c main_arg1)) := by
  show (cfg0.win 3).cut (grid0.coords t) ((dats m 0 c).after 3 t) = _
  rw [after0_3, out0_3_eq, View.canon_unit_zero zero3]
  simp only [View.ld_unit_zero (S := S1x4096x256) zero3, View.ld_unit_zero (S := S1x4096x1) zero3]
  rw [stagedX m c t, stagedM m c t]
  obtain ⟨-, -, -, -, -, -, -, -, -, a0, a1, a2⟩ := index_facts t
  funext j
  show kOutS (blkX (V m c main_arg0) (batchOf t)) (blkM (V m c main_arg1) (batchOf t)) j
    = GS3 (V m c main_arg0) (V m c main_arg1) (((cfg0.win 3).blk t).view.emb j)
  refine (GS3_at _ _ (batchOf t) _ j ?_ ?_).symm
  · show win0_3.index t (0 : Fin 3) * 1 + 1 * (j 0).val = t.val
    have hj : (j 0).val < 1 := (j 0).isLt
    omega
  · show win0_3.index t (2 : Fin 3) * 256 + 1 * (j 2).val = (j 2).val
    omega

/-! ## The blocks tile the two arrays -/

/-- An index of the weights' array is in point t's block iff each coordinate is in the block's range on its axis. -/
theorem mem_blkW (t : Fin cfg0.N) (i : S64x4096x1.Idx) :
    i ∈ ((cfg0.win 2).blk t).view.set ↔ ∀ a : Fin 3, win0_2.index t a * S1x4096x1.size a ≤ (i a).val
      ∧ (i a).val < win0_2.index t a * S1x4096x1.size a + S1x4096x1.size a := by
  show i ∈ ((View.whole main_v0_0).slice (win0_2.rect t)).set ↔ _
  rw [View.set_slice_whole, Rect.mem_set_unit]
  exact Iff.rfl

/-- An index of the row array is in point t's block iff each coordinate is in the block's range on its axis. -/
theorem mem_blkS (t : Fin cfg0.N) (i : S64x1x256.Idx) :
    i ∈ ((cfg0.win 3).blk t).view.set ↔ ∀ a : Fin 3, win0_3.index t a * S1x1x256.size a ≤ (i a).val
      ∧ (i a).val < win0_3.index t a * S1x1x256.size a + S1x1x256.size a := by
  show i ∈ ((View.whole main_v0_1).slice (win0_3.rect t)).set ↔ _
  rw [View.set_slice_whole, Rect.mem_set_unit]
  exact Iff.rfl

/-- Entry (b, n, 0) of the weights' array lies in the block of the point b, which writes back. -/
theorem coverW (i : S64x4096x1.Idx) :
    ∃ t : Fin cfg0.N, (cfg0.win 2).flush t = true ∧ i ∈ ((cfg0.win 2).blk t).view.set := by
  have h0 : (i 0).val < 64 := (i 0).isLt
  have h1 : (i 1).val < 4096 := (i 1).isLt
  have h2 : (i 2).val < 1 := (i 2).isLt
  obtain ⟨t, ht⟩ : ∃ t : Fin cfg0.N, t.val = (i 0).val := ⟨⟨(i 0).val, (N_0.symm ▸ h0 : (i 0).val < grid0.N)⟩, rfl⟩
  obtain ⟨-, -, -, -, -, -, a0, a1, a2, -⟩ := index_facts t
  refine ⟨t, flush0_2 t, ?_⟩
  rw [mem_blkW]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 1 ≤ (i 2).val ∧ (i 2).val < win0_2.index t (2 : Fin 3) * 1 + 1; omega

/-- Entry (b, 0, d) of the row array lies in the block of the point b, which writes back. -/
theorem coverS (i : S64x1x256.Idx) :
    ∃ t : Fin cfg0.N, (cfg0.win 3).flush t = true ∧ i ∈ ((cfg0.win 3).blk t).view.set := by
  have h0 : (i 0).val < 64 := (i 0).isLt
  have h1 : (i 1).val < 1 := (i 1).isLt
  have h2 : (i 2).val < 256 := (i 2).isLt
  obtain ⟨t, ht⟩ : ∃ t : Fin cfg0.N, t.val = (i 0).val := ⟨⟨(i 0).val, (N_0.symm ▸ h0 : (i 0).val < grid0.N)⟩, rfl⟩
  obtain ⟨-, -, -, -, -, -, -, -, -, a0, a1, a2⟩ := index_facts t
  refine ⟨t, flush0_3 t, ?_⟩
  rw [mem_blkS]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 256 ≤ (i 2).val ∧ (i 2).val < win0_3.index t (2 : Fin 3) * 256 + 256; omega

/-- After the last point the weights' array holds the kept-axis weights' result of the argument arrays. -/
theorem finalW (c : Dev nD) : (dats m 0 c).arrAt 2 cfg0.N
    = GW3 (m ((c.tc : Thread nD τ).loc main_arg0)) (m ((c.tc : Thread nD τ).loc main_arg1)) :=
  (dats m 0 c).arrAt_eq_of_cover 2 (GW3 (V m c main_arg0) (V m c main_arg1)) (fun t _ => flushedW_eq m c t) coverW

/-- After the last point the row array holds the kept-axis row result of the argument arrays. -/
theorem finalS (c : Dev nD) : (dats m 0 c).arrAt 3 cfg0.N
    = GS3 (m ((c.tc : Thread nD τ).loc main_arg0)) (m ((c.tc : Thread nD τ).loc main_arg1)) :=
  (dats m 0 c).arrAt_eq_of_cover 3 (GS3 (V m c main_arg0) (V m c main_arg1)) (fun t _ => flushedS_eq m c t) coverS

/-! ## The two reshapes after the call -/

/-- Dropping the unit axis of the kept-axis weights' result gives the weights' result: (c, n) and (c, n, 0) have the
    same row-major position. -/
theorem dropW (x0 : FVec Ideal S64x4096x256 .f32) (x1 : FVec Ideal S64x4096x1 .f32) :
    shapeCast S64x4096 (GW3 x0 x1) shapeCasts_S64x4096x1_S64x4096 = GW x0 x1 := by
  funext j
  have h0 : (j 0).val < 64 := (j 0).isLt
  have h1 : (j 1).val < 4096 := (j 1).isLt
  refine (shapeCast_apply (GW3 x0 x1) shapeCasts_S64x4096x1_S64x4096 j
    (ix3 (⟨(j 0).val, h0⟩ : Fin 64) (⟨(j 1).val, h1⟩ : Fin 4096) (0 : Fin 1)) ?_).trans rfl
  refine (Shape.rowMajor_val_three _).trans (Eq.trans ?_ (Shape.rowMajor_val_two j).symm)
  show ((j 0).val * 4096 + (j 1).val) * 1 + 0 = (j 0).val * 4096 + (j 1).val
  omega

/-- Dropping the unit axis of the kept-axis row result gives the row result: (c, d) and (c, 0, d) have the same
    row-major position. -/
theorem dropS (x0 : FVec Ideal S64x4096x256 .f32) (x1 : FVec Ideal S64x4096x1 .f32) :
    shapeCast S64x256 (GS3 x0 x1) shapeCasts_S64x1x256_S64x256 = GS x0 x1 := by
  funext j
  have h0 : (j 0).val < 64 := (j 0).isLt
  have h1 : (j 1).val < 256 := (j 1).isLt
  refine (shapeCast_apply (GS3 x0 x1) shapeCasts_S64x1x256_S64x256 j
    (ix3 (⟨(j 0).val, h0⟩ : Fin 64) (0 : Fin 1) (⟨(j 1).val, h1⟩ : Fin 256)) ?_).trans rfl
  refine (Shape.rowMajor_val_three _).trans (Eq.trans ?_ (Shape.rowMajor_val_two j).symm)
  show ((j 0).val * 1 + 0) * 256 + (j 1).val = (j 0).val * 256 + (j 1).val
  omega

/-- When the program returns, the first reshape's buffer holds the weights' result of the argument arrays. -/
theorem tailW (c : Dev nD) : Pipeline.afterTail₀ cfgs (dats m) 0 (V0 m) [hostOps1] c main_v1
    = GW (m ((c.tc : Thread nD τ).loc main_arg0)) (m ((c.tc : Thread nD τ).loc main_arg1)) := by
  have e : Pipeline.withArrays spec0 c (V0 m c) (fun w => (dats m 0 c).arrAt w cfg0.N) (Proc.devRef .tc (Pipeline.arrRef spec0 2))
      = GW3 (m ((c.tc : Thread nD τ).loc main_arg0)) (m ((c.tc : Thread nD τ).loc main_arg1)) :=
    (Pipeline.withArrays_arr spec0 launch0.win.arr_inj c _ _ 2).trans (finalW m c)
  unfold Pipeline.afterTail₀
  show StableHlo.after hostOps1 _ (Proc.devRef .tc main_v1) = _
  after_results
  show shapeCast S64x4096 (Pipeline.withArrays spec0 c (V0 m c) (fun w => (dats m 0 c).arrAt w cfg0.N) (Proc.devRef .tc (Pipeline.arrRef spec0 2))) shapeCasts_S64x4096x1_S64x4096 = _
  rw [e]
  exact dropW _ _

/-- When the program returns, the second reshape's buffer holds the row result of the argument arrays. -/
theorem tailS (c : Dev nD) : Pipeline.afterTail₀ cfgs (dats m) 0 (V0 m) [hostOps1] c main_v2
    = GS (m ((c.tc : Thread nD τ).loc main_arg0)) (m ((c.tc : Thread nD τ).loc main_arg1)) := by
  have e : Pipeline.withArrays spec0 c (V0 m c) (fun w => (dats m 0 c).arrAt w cfg0.N) (Proc.devRef .tc (Pipeline.arrRef spec0 3))
      = GS3 (m ((c.tc : Thread nD τ).loc main_arg0)) (m ((c.tc : Thread nD τ).loc main_arg1)) :=
    (Pipeline.withArrays_arr spec0 launch0.win.arr_inj c _ _ 3).trans (finalS m c)
  unfold Pipeline.afterTail₀
  show StableHlo.after hostOps1 _ (Proc.devRef .tc main_v2) = _
  after_results
  show shapeCast S64x256 (Pipeline.withArrays spec0 c (V0 m c) (fun w => (dats m 0 c).arrAt w cfg0.N) (Proc.devRef .tc (Pipeline.arrRef spec0 3))) shapeCasts_S64x1x256_S64x256 = _
  rw [e]
  exact dropS _ _

end Run
/-- The idealized kernel's run: both results at those functions of the argument arrays, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = GW (m ((c.tc : Thread nD τ).loc main_arg0)) (m ((c.tc : Thread nD τ).loc main_arg1))
      ∧ r.2.mem ((c.tc : Thread nD τ).loc main_v2) = GS (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_, ?_⟩) (run_main m ρ)
  · exact ((h c).2 main_v1 (Pipeline.mem_restRefs_of main_v1 rfl (by decide))).trans (tailW m c)
  · exact ((h c).2 main_v2 (Pipeline.mem_restRefs_of main_v2 rfl (by decide))).trans (tailS m c)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Arrays

end
-- ==== Proof.Bridge.lean ====
/-
  The two programs compute one function.  Batch by batch the kernel's stages are the reference's: the weights and the
  block m · x of batch c are batch c's slices of the reference's arrays; a routing step — softmax of m · b, weighted row
  sum, squash, next logits — carries the slices from its operands to its results; three steps from the zero logits, then
  the softmax of the last logits and the last squashed row.  The reshapes that drop the unit axis on either side read the
  same entries.
-/
import proofs.«121942_j26946624815393_1_alg».proof.Proof.RelSoftmax
import proofs.«121942_j26946624815393_1_alg».proof.Proof.RelSums
import proofs.«121942_j26946624815393_1_alg».proof.Proof.RelSquash
import proofs.«121942_j26946624815393_1_alg».proof.Proof.KArrays
import Idealize.ShloMosaic.Lib.ValueLayout

noncomputable section

namespace Cert.Bridge

open Idealize.ShloMosaic Idealize.ShloMosaic.ValueIdx Cert.KernelIdeal.Stage Cert.ReferenceIdeal.Stage Cert.KernelIdeal.Arrays

/-- One routing step: from weights, block and logits that are batch `c`'s slices, the squashed row and the new logits
    are batch `c`'s slices of the reference's. -/
theorem step_rel {c : Fin 64} {mk : FVec Ideal Cert.KernelIdeal.S4096x1 .f32} {M : FVec Ideal Cert.ReferenceIdeal.S64x4096x1 .f32}
    {xk : FVec Ideal Cert.KernelIdeal.S4096x256 .f32} {XR : FVec Ideal Cert.ReferenceIdeal.S64x4096x256 .f32}
    {b : FVec Ideal Cert.KernelIdeal.S4096x1 .f32} {B : FVec Ideal Cert.ReferenceIdeal.S64x4096x1 .f32}
    (hm : RelCol c mk M) (hx : RelBlk c xk XR) (hb : RelCol c b B) :
    RelRow c (kS mk xk b) (rS M XR B) ∧ RelCol c (kB mk xk b) (rB M XR B) := by
  have hs : RelRow c (kS mk xk b) (rS M XR B) := squash_rel (sigma_rel (softmax_rel (mul_rel hm hb)) hx)
  exact ⟨hs, next_rel hs hx hb⟩

/-- Three steps from the zero logits: the third logits and the third squashed row of batch `c`'s blocks are batch
    `c`'s slices of the reference's. -/
theorem three_steps {c : Fin 64} (a0 : Vec Ideal Cert.KernelIdeal.S1x4096x256 .f32) (a1 : Vec Ideal Cert.KernelIdeal.S1x4096x1 .f32)
    (x0 : FVec Ideal Cert.ReferenceIdeal.S64x4096x256 .f32) (x1 : FVec Ideal Cert.ReferenceIdeal.S64x4096x1 .f32)
    (h0 : ∀ (n : Fin 4096) (d : Fin 256), a0 (ix3 (0 : Fin 1) n d) = x0 (ix3 c n d))
    (h1 : ∀ n : Fin 4096, a1 (ix3 (0 : Fin 1) n (0 : Fin 1)) = x1 (ix3 c n (0 : Fin 1))) :
    RelCol c (kB3 a0 a1) (rB3 x0 x1) ∧ RelRow c (kS3 a0 a1) (rS3 x0 x1) := by
  have hm : RelCol c (kM a1) x1 := m_rel a1 x1 h1
  have hx : RelBlk c (kXm a0 a1) (rXm x0 x1) := xm_rel a0 a1 x0 x1 h0 h1
  have hb1 : RelCol c (kB1 a0 a1) (rB1 x0 x1) := (step_rel hm hx (b0_rel c)).2
  have hb2 : RelCol c (kB2 a0 a1) (rB2 x0 x1) := (step_rel hm hx hb1).2
  have h3 := step_rel hm hx hb2
  exact ⟨h3.2, h3.1⟩

/-- The weights' results agree: entry (c, n) on both sides is the softmax of batch c's third logits at row n. -/
theorem GW_eq (x0 : FVec Ideal Cert.ReferenceIdeal.S64x4096x256 .f32) (x1 : FVec Ideal Cert.ReferenceIdeal.S64x4096x1 .f32) :
    GW x0 x1 = rOutW x0 x1 := by
  funext j
  obtain ⟨c, n, rfl⟩ : ∃ (c : Fin 64) (n : Fin 4096), j = ix2 c n := ⟨j 0, j 1, eq_ix2 j⟩
  have hrel := three_steps (c := c) (blkX x0 c) (blkM x1 c) x0 x1 (fun _ _ => rfl) (fun _ => rfl)
  have hw := softmax_rel hrel.1 n
  show kOutW (blkX x0 c) (blkM x1 c) (ix3 (0 : Fin 1) n (0 : Fin 1)) = rOutW x0 x1 (ix2 c n)
  unfold kOutW rOutW
  rw [shapeCast_ab_1ab_apply, hw]
  exact (Idealize.ShloMosaic.shapeCast_apply _ _ (ix2 c n) (ix3 c n (0 : Fin 1)) (by
    rw [Shape.rowMajor_val_three, Shape.rowMajor_val_two]
    show (c.val * 4096 + n.val) * 1 + 0 = c.val * 4096 + n.val
    omega)).symm

/-- The row results agree: entry (c, d) on both sides is batch c's third squashed row at feature d. -/
theorem GS_eq (x0 : FVec Ideal Cert.ReferenceIdeal.S64x4096x256 .f32) (x1 : FVec Ideal Cert.ReferenceIdeal.S64x4096x1 .f32) :
    GS x0 x1 = rOutS x0 x1 := by
  funext j
  obtain ⟨c, d, rfl⟩ : ∃ (c : Fin 64) (d : Fin 256), j = ix2 c d := ⟨j 0, j 1, eq_ix2 j⟩
  have hrel := three_steps (c := c) (blkX x0 c) (blkM x1 c) x0 x1 (fun _ _ => rfl) (fun _ => rfl)
  have hs := hrel.2 d
  show kOutS (blkX x0 c) (blkM x1 c) (ix3 (0 : Fin 1) (0 : Fin 1) d) = rOutS x0 x1 (ix2 c d)
  unfold kOutS rOutS
  rw [shapeCast_ab_1ab_apply, hs]
  exact (Idealize.ShloMosaic.shapeCast_apply _ _ (ix2 c d) (ix3 c (0 : Fin 1) d) (by
    rw [Shape.rowMajor_val_three, Shape.rowMajor_val_two]
    show (c.val * 1 + 0) * 256 + d.val = c.val * 256 + d.val
    omega)).symm

end Cert.Bridge

end
-- ==== Proof.RefRun.lean ====
/-
  The reference's run, stated over the routing stages: every weakly fair execution of its @main ends with the first
  result at the softmax of the third logits and the second at the third squashed rows, as functions of the two argument
  arrays, which end unchanged.

  The 149 operations are five consecutive stretches: the block `xm` with the zero logits, the three routing steps, and
  the last softmax with the two reshapes.  From an arbitrary valuation of the buffers, what a stretch leaves in each
  buffer that is read later is a stage function of the few buffers the stretch reads, or what was there; the contents
  after the whole list are the five stretches' folds composed.
-/
import proofs.«121942_j26946624815393_1_alg».proof.Proof.RefOps
import proofs.«121942_j26946624815393_1_alg».proof.Proof.RStages

noncomputable section

namespace Cert.ReferenceIdeal.RunStages

open Cert.ReferenceIdeal Cert.ReferenceIdeal.Gen Cert.ReferenceIdeal.OpsList Cert.ReferenceIdeal.Stage
open Idealize.ShloMosaic Idealize.ShloMosaic.TcCoe Idealize.SL.Sem Idealize.ShloMosaic.StableHlo

variable {F : FTy → Type} [FloatOps F]

/-- The contents after two lists run one after the other: the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The block xm and the zero logits: operations 0 to 3. -/
abbrev c0 : List (HloOp τ sig (Elt F)) :=
  [ unary main_arg1 main_v0 (broadcastInDim S64x4096x256 ![0, 1, 2] bcast_S64x4096x1_S64x4096x256_0_1_2 : (⟨S64x4096x1, .f32⟩ : BufTy).Contents (Elt F) → (⟨S64x4096x256, .f32⟩ : BufTy).Contents (Elt F)),
    binary main_v0 main_arg0 main_v1 (mulf : (⟨S64x4096x256, .f32⟩ : BufTy).Contents (Elt F) → (⟨S64x4096x256, .f32⟩ : BufTy).Contents (Elt F) → (⟨S64x4096x256, .f32⟩ : BufTy).Contents (Elt F)),
    nullary main_cst (constant S_ .f32 0x00000000#32),
    unary main_cst main_v2 (broadcastInDim S64x4096x1 ![] bcast_S_S64x4096x1 : (⟨S_, .f32⟩ : BufTy).Contents (Elt F) → (⟨S64x4096x1, .f32⟩ : BufTy).Contents (Elt F)) ]

/-- The first routing step: operations 4 to 46. -/
abbrev c1 : List (HloOp τ sig (Elt F)) :=
  [ binary main_arg1 main_v2 main_v3 (mulf : (⟨S64x4096x1, .f32⟩ : BufTy).Contents (Elt F) → (⟨S64x4096x1, .f32⟩ : BufTy).Contents (Elt F) → (⟨S64x4096x1, .f32⟩ : BufTy).Contents (Elt F)),
    nullary main_cst_0 (constant S_ .f32 0xFF800000#32),
    binary main_v3 main_cst_0 main_v4 ((fun x v => Host.reduce FloatOps.maximumf x v reducesTo_S64x4096x1_S64x1_d1 h_S_) : (⟨S64x4096x1, .f32⟩ : BufTy).Contents (Elt F) → (⟨S_, .f32⟩ : BufTy).Contents (Elt F) → (⟨S64x1, .f32⟩ : BufTy).Contents (Elt F)),
    nullary main_cst_1 (constant S_ .f32 0xFF800000#32),
    unary main_cst_1 main_v5 (broadcastInDim S64x1 ![] bcast_S_S64x1 : (⟨S_, .f32⟩ : BufTy).Contents (Elt F) → (⟨S64x1, .f32⟩ : BufTy).Contents (Elt F)),
    binary main_v5 main_v4 main_v6 (maximumf : (⟨S64x1, .f32⟩ : BufTy).Contents (Elt F) → (⟨S64x1, .f32⟩ : BufTy).Contents (Elt F) → (⟨S64x1, .f32⟩ : BufTy).Contents (Elt F)),
    unary main_v6 main_v7 (broadcastInDim S64x1x1 ![0, 2] bcast_S64x1_S64x1x1_0_2 : (⟨S64x1, .f32⟩ : BufTy).Contents (Elt F) → (⟨S64x1x1, .f32⟩ : BufTy).Contents (Elt F)),
    unary main_v7 main_v8 (broadcastInDim S64x4096x1 ![0, 1, 2] bcast_S64x1x1_S64x4096x1_0_1_2 : (⟨S64x1x1, .f32⟩ : BufTy).Contents (Elt F) → (⟨S64x4096x1, .f32⟩ : BufTy).Contents (Elt F)),
    binary main_v3 main_v8 main_v9 (subf : (⟨S64x4096x1, .f32⟩ : BufTy).Contents (Elt F) → (⟨S64x4096x1, .f32⟩ : BufTy).Contents (Elt F) → (⟨S64x4096x1, .f32⟩ : BufTy).Contents (Elt F)),
    unary main_v9 main_v10 (Host.exp : (⟨S64x4096x1, .f32⟩ : BufTy).Contents (Elt F) → (⟨S64x4096x1, .f32⟩ : BufTy).Contents (Elt F)),
    nullary main_cst_2 (constant S_ .f32 0x00000000#32),
    binary main_v10 main_cst_2 main_v11 ((fun x v => Host.reduceAdd x v reducesTo_S64x4096x1_S64x1_d1 h_S_) : (⟨S64x4096x1, .f32⟩ : BufTy).Contents (Elt F) → (⟨S_, .f32⟩ : BufTy).Contents (Elt F) → (⟨S64x1, .f32⟩ : BufTy).Contents (Elt F)),
    unary main_v11 main_v12 (broadcastInDim S64x1x1 ![0, 2] bcast_S64x1_S64x1x1_0_2 : (⟨S64x1, .f32⟩ : BufTy).Contents (Elt F) → (⟨S64x1x1, .f32⟩ : BufTy).Contents (Elt F)),
    unary main_v12 main_v13 (broadcastInDim S64x4096x1 ![0, 1, 2] bcast_S64x1x1_S64x4096x1_0_1_2 : (⟨S64x1x1, .f32⟩ : BufTy).Contents (Elt F) → (⟨S64x4096x1, .f32⟩ : BufTy).Contents (Elt F)),
    binary main_v10 main_v13 main_v14 (Host.divf : (⟨S64x4096x1, .f32⟩ : BufTy).Contents (Elt F) → (⟨S64x4096x1, .f32⟩ : BufTy).Contents (Elt F) → (⟨S64x4096x1, .f32⟩ : BufTy).Contents (Elt F)),
    unary main_v14 main_v15 (broadcastInDim S64x4096x256 ![0, 1, 2] bcast_S64x4096x1_S64x4096x256_0_1_2 : (⟨S64x4096x1, .f32⟩ : BufTy).Contents (Elt F) → (⟨S64x4096x256, .f32⟩ : BufTy).Contents (Elt F)),
    binary main_v15 main_v1 main_v16 (mulf : (⟨S64x4096x256, .f32⟩ : BufTy).Contents (Elt F) → (⟨S64x4096x256, .f32⟩ : BufTy).Contents (Elt F) → (⟨S64x4096x256, .f32⟩ : BufTy).Contents (Elt F)),
    nullary main_cst_3 (constant S_ .f32 0x00000000#32),
    binary main_v16 main_cst_3 main_v17 ((fun x v => Host.reduceAdd x v reducesTo_S64x4096x256_S64x256_d1 h_S_) : (⟨S64x4096x256, .f32⟩ : BufTy).Contents (Elt F) → (⟨S_, .f32⟩ : BufTy).Contents (Elt F) → (⟨S64x256, .f32⟩ : BufTy).Contents (Elt F)),
    unary main_v17 main_v18 (broadcastInDim S64x1x256 ![0, 2] bcast_S64x256_S64x1x256_0_2 : (⟨S64x256, .f32⟩ : BufTy).Contents (Elt F) → (⟨S64x1x256, .f32⟩ : BufTy).Contents (Elt F)),
    TRef.binary (TRef.of (T := ⟨S64x1x256, .f32⟩) main_v18) (TRef.of (T := ⟨S64x1x256, .f32⟩) main_v18) (TRef.of (T := ⟨S64x1x256, .f32⟩) main_call0_v0) mulf,
    TRef.nullary (TRef.of (T := ⟨S_, .f32⟩) main_call0_cst) (constant S_ .f32 0x00000000#32),
    TRef.binary (TRef.of (T := ⟨S64x1x256, .f32⟩) main_call0_v0) (TRef.of (T := ⟨S_, .f32⟩) main_call0_cst) (TRef.of (T := ⟨S64x1, .f32⟩) main_call0_v1) (fun x v => Host.reduceAdd x v reducesTo_S64x1x256_S64x1_d2 h_S_),
    TRef.unary (TRef.of (T := ⟨S64x1, .f32⟩) main_call0_v1) (TRef.of (T := ⟨S64x1x1, .f32⟩) main_call0_v2) (broadcastInDim S64x1x1 ![0, 1] bcast_S64x1_S64x1x1_0_1),
    TRef.unary (TRef.of (T := ⟨S64x1x1, .f32⟩) main_call0_v2) (TRef.of (T := ⟨S64x1x1, .f32⟩) main_v19) Host.sqrt,
    binary main_v19 main_v19 main_v20 (mulf : (⟨S64x1x1, .f32⟩ : BufTy).Contents (Elt F) → (⟨S64x1x1, .f32⟩ : BufTy).Contents (Elt F) → (⟨S64x1x1, .f32⟩ : BufTy).Contents (Elt F)),
    binary main_v19 main_v19 main_v21 (mulf : (⟨S64x1x1, .f32⟩ : BufTy).Contents (Elt F) → (⟨S64x1x1, .f32⟩ : BufTy).Contents (Elt F) → (⟨S64x1x1, .f32⟩ : BufTy).Contents (Elt F)),
    nullary main_cst_4 (constant S_ .f32 0x3F800000#32),
    unary main_cst_4 main_v22 (broadcastInDim S64x1x1 ![] bcast_S_S64x1x1 : (⟨S_, .f32⟩ : BufTy).Contents (Elt F) → (⟨S64x1x1, .f32⟩ : BufTy).Contents (Elt F)),
    binary main_v22 main_v21 main_v23 (addf : (⟨S64x1x1, .f32⟩ : BufTy).Contents (Elt F) → (⟨S64x1x1, .f32⟩ : BufTy).Contents (Elt F) → (⟨S64x1x1, .f32⟩ : BufTy).Contents (Elt F)),
    binary main_v20 main_v23 main_v24 (Host.divf : (⟨S64x1x1, .f32⟩ : BufTy).Contents (Elt F) → (⟨S64x1x1, .f32⟩ : BufTy).Contents (Elt F) → (⟨S64x1x1, .f32⟩ : BufTy).Contents (Elt F)),
    nullary main_cst_5 (constant S_ .f32 0x322BCC77#32),
    unary main_cst_5 main_v25 (broadcastInDim S64x1x1 ![] bcast_S_S64x1x1 : (⟨S_, .f32⟩ : BufTy).Contents (Elt F) → (⟨S64x1x1, .f32⟩ : BufTy).Contents (Elt F)),
    binary main_v19 main_v25 main_v26 (addf : (⟨S64x1x1, .f32⟩ : BufTy).Contents (Elt F) → (⟨S64x1x1, .f32⟩ : BufTy).Contents (Elt F) → (⟨S64x1x1, .f32⟩ : BufTy).Contents (Elt F)),
    binary main_v24 main_v26 main_v27 (Host.divf : (⟨S64x1x1, .f32⟩ : BufTy).Contents (Elt F) → (⟨S64x1x1, .f32⟩ : BufTy).Contents (Elt F) → (⟨S64x1x1, .f32⟩ : BufTy).Contents (Elt F)),
    unary main_v27 main_v28 (broadcastInDim S64x1x256 ![0, 1, 2] bcast_S64x1x1_S64x1x256_0_1_2 : (⟨S64x1x1, .f32⟩ : BufTy).Contents (Elt F) → (⟨S64x1x256, .f32⟩ : BufTy).Contents (Elt F)),
    binary main_v28 main_v18 main_v29 (mulf : (⟨S64x1x256, .f32⟩ : BufTy).Contents (Elt F) → (⟨S64x1x256, .f32⟩ : BufTy).Contents (Elt F) → (⟨S64x1x256, .f32⟩ : BufTy).Contents (Elt F)),
    unary main_v29 main_v30 (broadcastInDim S64x4096x256 ![0, 1, 2] bcast_S64x1x256_S64x4096x256_0_1_2 : (⟨S64x1x256, .f32⟩ : BufTy).Contents (Elt F) → (⟨S64x4096x256, .f32⟩ : BufTy).Contents (Elt F)),
    binary main_v30 main_v1 main_v31 (mulf : (⟨S64x4096x256, .f32⟩ : BufTy).Contents (Elt F) → (⟨S64x4096x256, .f32⟩ : BufTy).Contents (Elt F) → (⟨S64x4096x256, .f32⟩ : BufTy).Contents (Elt F)),
    nullary main_cst_6 (constant S_ .f32 0x00000000#32),
    binary main_v31 main_cst_6 main_v32 ((fun x v => Host.reduceAdd x v reducesTo_S64x4096x256_S64x4096_d2 h_S_) : (⟨S64x4096x256, .f32⟩ : BufTy).Contents (Elt F) → (⟨S_, .f32⟩ : BufTy).Contents (Elt F) → (⟨S64x4096, .f32⟩ : BufTy).Contents (Elt F)),
    unary main_v32 main_v33 (broadcastInDim S64x4096x1 ![0, 1] bcast_S64x4096_S64x4096x1_0_1 : (⟨S64x4096, .f32⟩ : BufTy).Contents (Elt F) → (⟨S64x4096x1, .f32⟩ : BufTy).Contents (Elt F)),
    binary main_v2 main_v33 main_v34 (addf : (⟨S64x4096x1, .f32⟩ : BufTy).Contents (Elt F) → (⟨S64x4096x1, .f32⟩ : BufTy).Contents (Elt F) → (⟨S64x4096x1, .f32⟩ : BufTy).Contents (Elt F)) ]

/-- The second routing step: operations 47 to 89. -/
abbrev c2 : List (HloOp τ sig (Elt F)) :=
  [ binary main_arg1 main_v34 main_v35 (mulf : (⟨S64x4096x1, .f32⟩ : BufTy).Contents (Elt F) → (⟨S64x4096x1, .f32⟩ : BufTy).Contents (Elt F) → (⟨S64x4096x1, .f32⟩ : BufTy).Contents (Elt F)),
    nullary main_cst_7 (constant S_ .f32 0xFF800000#32),
    binary main_v35 main_cst_7 main_v36 ((fun x v => Host.reduce FloatOps.maximumf x v reducesTo_S64x4096x1_S64x1_d1 h_S_) : (⟨S64x4096x1, .f32⟩ : BufTy).Contents (Elt F) → (⟨S_, .f32⟩ : BufTy).Contents (Elt F) → (⟨S64x1, .f32⟩ : BufTy).Contents (Elt F)),
    nullary main_cst_8 (constant S_ .f32 0xFF800000#32),
    unary main_cst_8 main_v37 (broadcastInDim S64x1 ![] bcast_S_S64x1 : (⟨S_, .f32⟩ : BufTy).Contents (Elt F) → (⟨S64x1, .f32⟩ : BufTy).Contents (Elt F)),
    binary main_v37 main_v36 main_v38 (maximumf : (⟨S64x1, .f32⟩ : BufTy).Contents (Elt F) → (⟨S64x1, .f32⟩ : BufTy).Contents (Elt F) → (⟨S64x1, .f32⟩ : BufTy).Contents (Elt F)),
    unary main_v38 main_v39 (broadcastInDim S64x1x1 ![0, 2] bcast_S64x1_S64x1x1_0_2 : (⟨S64x1, .f32⟩ : BufTy).Contents (Elt F) → (⟨S64x1x1, .f32⟩ : BufTy).Contents (Elt F)),
    unary main_v39 main_v40 (broadcastInDim S64x4096x1 ![0, 1, 2] bcast_S64x1x1_S64x4096x1_0_1_2 : (⟨S64x1x1, .f32⟩ : BufTy).Contents (Elt F) → (⟨S64x4096x1, .f32⟩ : BufTy).Contents (Elt F)),
    binary main_v35 main_v40 main_v41 (subf : (⟨S64x4096x1, .f32⟩ : BufTy).Contents (Elt F) → (⟨S64x4096x1, .f32⟩ : BufTy).Contents (Elt F) → (⟨S64x4096x1, .f32⟩ : BufTy).Contents (Elt F)),
    unary main_v41 main_v42 (Host.exp : (⟨S64x4096x1, .f32⟩ : BufTy).Contents (Elt F) → (⟨S64x4096x1, .f32⟩ : BufTy).Contents (Elt F)),
    nullary main_cst_9 (constant S_ .f32 0x00000000#32),
    binary main_v42 main_cst_9 main_v43 ((fun x v => Host.reduceAdd x v reducesTo_S64x4096x1_S64x1_d1 h_S_) : (⟨S64x4096x1, .f32⟩ : BufTy).Contents (Elt F) → (⟨S_, .f32⟩ : BufTy).Contents (Elt F) → (⟨S64x1, .f32⟩ : BufTy).Contents (Elt F)),
    unary main_v43 main_v44 (broadcastInDim S64x1x1 ![0, 2] bcast_S64x1_S64x1x1_0_2 : (⟨S64x1, .f32⟩ : BufTy).Contents (Elt F) → (⟨S64x1x1, .f32⟩ : BufTy).Contents (Elt F)),
    unary main_v44 main_v45 (broadcastInDim S64x4096x1 ![0, 1, 2] bcast_S64x1x1_S64x4096x1_0_1_2 : (⟨S64x1x1, .f32⟩ : BufTy).Contents (Elt F) → (⟨S64x4096x1, .f32⟩ : BufTy).Contents (Elt F)),
    binary main_v42 main_v45 main_v46 (Host.divf : (⟨S64x4096x1, .f32⟩ : BufTy).Contents (Elt F) → (⟨S64x4096x1, .f32⟩ : BufTy).Contents (Elt F) → (⟨S64x4096x1, .f32⟩ : BufTy).Contents (Elt F)),
    unary main_v46 main_v47 (broadcastInDim S64x4096x256 ![0, 1, 2] bcast_S64x4096x1_S64x4096x256_0_1_2 : (⟨S64x4096x1, .f32⟩ : BufTy).Contents (Elt F) → (⟨S64x4096x256, .f32⟩ : BufTy).Contents (Elt F)),
    binary main_v47 main_v1 main_v48 (mulf : (⟨S64x4096x256, .f32⟩ : BufTy).Contents (Elt F) → (⟨S64x4096x256, .f32⟩ : BufTy).Contents (Elt F) → (⟨S64x4096x256, .f32⟩ : BufTy).Contents (Elt F)),
    nullary main_cst_10 (constant S_ .f32 0x00000000#32),
    binary main_v48 main_cst_10 main_v49 ((fun x v => Host.reduceAdd x v reducesTo_S64x4096x256_S64x256_d1 h_S_) : (⟨S64x4096x256, .f32⟩ : BufTy).Contents (Elt F) → (⟨S_, .f32⟩ : BufTy).Contents (Elt F) → (⟨S64x256, .f32⟩ : BufTy).Contents (Elt F)),
    unary main_v49 main_v50 (broadcastInDim S64x1x256 ![0, 2] bcast_S64x256_S64x1x256_0_2 : (⟨S64x256, .f32⟩ : BufTy).Contents (Elt F) → (⟨S64x1x256, .f32⟩ : BufTy).Contents (Elt F)),
    TRef.binary (TRef.of (T := ⟨S64x1x256, .f32⟩) main_v50) (TRef.of (T := ⟨S64x1x256, .f32⟩) main_v50) (TRef.of (T := ⟨S64x1x256, .f32⟩) main_call1_v0) mulf,
    TRef.nullary (TRef.of (T := ⟨S_, .f32⟩) main_call1_cst) (constant S_ .f32 0x00000000#32),
    TRef.binary (TRef.of (T := ⟨S64x1x256, .f32⟩) main_call1_v0) (TRef.of (T := ⟨S_, .f32⟩) main_call1_cst) (TRef.of (T := ⟨S64x1, .f32⟩) main_call1_v1) (fun x v => Host.reduceAdd x v reducesTo_S64x1x256_S64x1_d2 h_S_),
    TRef.unary (TRef.of (T := ⟨S64x1, .f32⟩) main_call1_v1) (TRef.of (T := ⟨S64x1x1, .f32⟩) main_call1_v2) (broadcastInDim S64x1x1 ![0, 1] bcast_S64x1_S64x1x1_0_1),
    TRef.unary (TRef.of (T := ⟨S64x1x1, .f32⟩) main_call1_v2) (TRef.of (T := ⟨S64x1x1, .f32⟩) main_v51) Host.sqrt,
    binary main_v51 main_v51 main_v52 (mulf : (⟨S64x1x1, .f32⟩ : BufTy).Contents (Elt F) → (⟨S64x1x1, .f32⟩ : BufTy).Contents (Elt F) → (⟨S64x1x1, .f32⟩ : BufTy).Contents (Elt F)),
    binary main_v51 main_v51 main_v53 (mulf : (⟨S64x1x1, .f32⟩ : BufTy).Contents (Elt F) → (⟨S64x1x1, .f32⟩ : BufTy).Contents (Elt F) → (⟨S64x1x1, .f32⟩ : BufTy).Contents (Elt F)),
    nullary main_cst_11 (constant S_ .f32 0x3F800000#32),
    unary main_cst_11 main_v54 (broadcastInDim S64x1x1 ![] bcast_S_S64x1x1 : (⟨S_, .f32⟩ : BufTy).Contents (Elt F) → (⟨S64x1x1, .f32⟩ : BufTy).Contents (Elt F)),
    binary main_v54 main_v53 main_v55 (addf : (⟨S64x1x1, .f32⟩ : BufTy).Contents (Elt F) → (⟨S64x1x1, .f32⟩ : BufTy).Contents (Elt F) → (⟨S64x1x1, .f32⟩ : BufTy).Contents (Elt F)),
    binary main_v52 main_v55 main_v56 (Host.divf : (⟨S64x1x1, .f32⟩ : BufTy).Contents (Elt F) → (⟨S64x1x1, .f32⟩ : BufTy).Contents (Elt F) → (⟨S64x1x1, .f32⟩ : BufTy).Contents (Elt F)),
    nullary main_cst_12 (constant S_ .f32 0x322BCC77#32),
    unary main_cst_12 main_v57 (broadcastInDim S64x1x1 ![] bcast_S_S64x1x1 : (⟨S_, .f32⟩ : BufTy).Contents (Elt F) → (⟨S64x1x1, .f32⟩ : BufTy).Contents (Elt F)),
    binary main_v51 main_v57 main_v58 (addf : (⟨S64x1x1, .f32⟩ : BufTy).Contents (Elt F) → (⟨S64x1x1, .f32⟩ : BufTy).Contents (Elt F) → (⟨S64x1x1, .f32⟩ : BufTy).Contents (Elt F)),
    binary main_v56 main_v58 main_v59 (Host.divf : (⟨S64x1x1, .f32⟩ : BufTy).Contents (Elt F) → (⟨S64x1x1, .f32⟩ : BufTy).Contents (Elt F) → (⟨S64x1x1, .f32⟩ : BufTy).Contents (Elt F)),
    unary main_v59 main_v60 (broadcastInDim S64x1x256 ![0, 1, 2] bcast_S64x1x1_S64x1x256_0_1_2 : (⟨S64x1x1, .f32⟩ : BufTy).Contents (Elt F) → (⟨S64x1x256, .f32⟩ : BufTy).Contents (Elt F)),
    binary main_v60 main_v50 main_v61 (mulf : (⟨S64x1x256, .f32⟩ : BufTy).Contents (Elt F) → (⟨S64x1x256, .f32⟩ : BufTy).Contents (Elt F) → (⟨S64x1x256, .f32⟩ : BufTy).Contents (Elt F)),
    unary main_v61 main_v62 (broadcastInDim S64x4096x256 ![0, 1, 2] bcast_S64x1x256_S64x4096x256_0_1_2 : (⟨S64x1x256, .f32⟩ : BufTy).Contents (Elt F) → (⟨S64x4096x256, .f32⟩ : BufTy).Contents (Elt F)),
    binary main_v62 main_v1 main_v63 (mulf : (⟨S64x4096x256, .f32⟩ : BufTy).Contents (Elt F) → (⟨S64x4096x256, .f32⟩ : BufTy).Contents (Elt F) → (⟨S64x4096x256, .f32⟩ : BufTy).Contents (Elt F)),
    nullary main_cst_13 (constant S_ .f32 0x00000000#32),
    binary main_v63 main_cst_13 main_v64 ((fun x v => Host.reduceAdd x v reducesTo_S64x4096x256_S64x4096_d2 h_S_) : (⟨S64x4096x256, .f32⟩ : BufTy).Contents (Elt F) → (⟨S_, .f32⟩ : BufTy).Contents (Elt F) → (⟨S64x4096, .f32⟩ : BufTy).Contents (Elt F)),
    unary main_v64 main_v65 (broadcastInDim S64x4096x1 ![0, 1] bcast_S64x4096_S64x4096x1_0_1 : (⟨S64x4096, .f32⟩ : BufTy).Contents (Elt F) → (⟨S64x4096x1, .f32⟩ : BufTy).Contents (Elt F)),
    binary main_v34 main_v65 main_v66 (addf : (⟨S64x4096x1, .f32⟩ : BufTy).Contents (Elt F) → (⟨S64x4096x1, .f32⟩ : BufTy).Contents (Elt F) → (⟨S64x4096x1, .f32⟩ : BufTy).Contents (Elt F)) ]

/-- The third routing step: operations 90 to 132. -/
abbrev c3 : List (HloOp τ sig (Elt F)) :=
  [ binary main_arg1 main_v66 main_v67 (mulf : (⟨S64x4096x1, .f32⟩ : BufTy).Contents (Elt F) → (⟨S64x4096x1, .f32⟩ : BufTy).Contents (Elt F) → (⟨S64x4096x1, .f32⟩ : BufTy).Contents (Elt F)),
    nullary main_cst_14 (constant S_ .f32 0xFF800000#32),
    binary main_v67 main_cst_14 main_v68 ((fun x v => Host.reduce FloatOps.maximumf x v reducesTo_S64x4096x1_S64x1_d1 h_S_) : (⟨S64x4096x1, .f32⟩ : BufTy).Contents (Elt F) → (⟨S_, .f32⟩ : BufTy).Contents (Elt F) → (⟨S64x1, .f32⟩ : BufTy).Contents (Elt F)),
    nullary main_cst_15 (constant S_ .f32 0xFF800000#32),
    unary main_cst_15 main_v69 (broadcastInDim S64x1 ![] bcast_S_S64x1 : (⟨S_, .f32⟩ : BufTy).Contents (Elt F) → (⟨S64x1, .f32⟩ : BufTy).Contents (Elt F)),
    binary main_v69 main_v68 main_v70 (maximumf : (⟨S64x1, .f32⟩ : BufTy).Contents (Elt F) → (⟨S64x1, .f32⟩ : BufTy).Contents (Elt F) → (⟨S64x1, .f32⟩ : BufTy).Contents (Elt F)),
    unary main_v70 main_v71 (broadcastInDim S64x1x1 ![0, 2] bcast_S64x1_S64x1x1_0_2 : (⟨S64x1, .f32⟩ : BufTy).Contents (Elt F) → (⟨S64x1x1, .f32⟩ : BufTy).Contents (Elt F)),
    unary main_v71 main_v72 (broadcastInDim S64x4096x1 ![0, 1, 2] bcast_S64x1x1_S64x4096x1_0_1_2 : (⟨S64x1x1, .f32⟩ : BufTy).Contents (Elt F) → (⟨S64x4096x1, .f32⟩ : BufTy).Contents (Elt F)),
    binary main_v67 main_v72 main_v73 (subf : (⟨S64x4096x1, .f32⟩ : BufTy).Contents (Elt F) → (⟨S64x4096x1, .f32⟩ : BufTy).Contents (Elt F) → (⟨S64x4096x1, .f32⟩ : BufTy).Contents (Elt F)),
    unary main_v73 main_v74 (Host.exp : (⟨S64x4096x1, .f32⟩ : BufTy).Contents (Elt F) → (⟨S64x4096x1, .f32⟩ : BufTy).Contents (Elt F)),
    nullary main_cst_16 (constant S_ .f32 0x00000000#32),
    binary main_v74 main_cst_16 main_v75 ((fun x v => Host.reduceAdd x v reducesTo_S64x4096x1_S64x1_d1 h_S_) : (⟨S64x4096x1, .f32⟩ : BufTy).Contents (Elt F) → (⟨S_, .f32⟩ : BufTy).Contents (Elt F) → (⟨S64x1, .f32⟩ : BufTy).Contents (Elt F)),
    unary main_v75 main_v76 (broadcastInDim S64x1x1 ![0, 2] bcast_S64x1_S64x1x1_0_2 : (⟨S64x1, .f32⟩ : BufTy).Contents (Elt F) → (⟨S64x1x1, .f32⟩ : BufTy).Contents (Elt F)),
    unary main_v76 main_v77 (broadcastInDim S64x4096x1 ![0, 1, 2] bcast_S64x1x1_S64x4096x1_0_1_2 : (⟨S64x1x1, .f32⟩ : BufTy).Contents (Elt F) → (⟨S64x4096x1, .f32⟩ : BufTy).Contents (Elt F)),
    binary main_v74 main_v77 main_v78 (Host.divf : (⟨S64x4096x1, .f32⟩ : BufTy).Contents (Elt F) → (⟨S64x4096x1, .f32⟩ : BufTy).Contents (Elt F) → (⟨S64x4096x1, .f32⟩ : BufTy).Contents (Elt F)),
    unary main_v78 main_v79 (broadcastInDim S64x4096x256 ![0, 1, 2] bcast_S64x4096x1_S64x4096x256_0_1_2 : (⟨S64x4096x1, .f32⟩ : BufTy).Contents (Elt F) → (⟨S64x4096x256, .f32⟩ : BufTy).Contents (Elt F)),
    binary main_v79 main_v1 main_v80 (mulf : (⟨S64x4096x256, .f32⟩ : BufTy).Contents (Elt F) → (⟨S64x4096x256, .f32⟩ : BufTy).Contents (Elt F) → (⟨S64x4096x256, .f32⟩ : BufTy).Contents (Elt F)),
    nullary main_cst_17 (constant S_ .f32 0x00000000#32),
    binary main_v80 main_cst_17 main_v81 ((fun x v => Host.reduceAdd x v reducesTo_S64x4096x256_S64x256_d1 h_S_) : (⟨S64x4096x256, .f32⟩ : BufTy).Contents (Elt F) → (⟨S_, .f32⟩ : BufTy).Contents (Elt F) → (⟨S64x256, .f32⟩ : BufTy).Contents (Elt F)),
    unary main_v81 main_v82 (broadcastInDim S64x1x256 ![0, 2] bcast_S64x256_S64x1x256_0_2 : (⟨S64x256, .f32⟩ : BufTy).Contents (Elt F) → (⟨S64x1x256, .f32⟩ : BufTy).Contents (Elt F)),
    TRef.binary (TRef.of (T := ⟨S64x1x256, .f32⟩) main_v82) (TRef.of (T := ⟨S64x1x256, .f32⟩) main_v82) (TRef.of (T := ⟨S64x1x256, .f32⟩) main_call2_v0) mulf,
    TRef.nullary (TRef.of (T := ⟨S_, .f32⟩) main_call2_cst) (constant S_ .f32 0x00000000#32),
    TRef.binary (TRef.of (T := ⟨S64x1x256, .f32⟩) main_call2_v0) (TRef.of (T := ⟨S_, .f32⟩) main_call2_cst) (TRef.of (T := ⟨S64x1, .f32⟩) main_call2_v1) (fun x v => Host.reduceAdd x v reducesTo_S64x1x256_S64x1_d2 h_S_),
    TRef.unary (TRef.of (T := ⟨S64x1, .f32⟩) main_call2_v1) (TRef.of (T := ⟨S64x1x1, .f32⟩) main_call2_v2) (broadcastInDim S64x1x1 ![0, 1] bcast_S64x1_S64x1x1_0_1),
    TRef.unary (TRef.of (T := ⟨S64x1x1, .f32⟩) main_call2_v2) (TRef.of (T := ⟨S64x1x1, .f32⟩) main_v83) Host.sqrt,
    binary main_v83 main_v83 main_v84 (mulf : (⟨S64x1x1, .f32⟩ : BufTy).Contents (Elt F) → (⟨S64x1x1, .f32⟩ : BufTy).Contents (Elt F) → (⟨S64x1x1, .f32⟩ : BufTy).Contents (Elt F)),
    binary main_v83 main_v83 main_v85 (mulf : (⟨S64x1x1, .f32⟩ : BufTy).Contents (Elt F) → (⟨S64x1x1, .f32⟩ : BufTy).Contents (Elt F) → (⟨S64x1x1, .f32⟩ : BufTy).Contents (Elt F)),
    nullary main_cst_18 (constant S_ .f32 0x3F800000#32),
    unary main_cst_18 main_v86 (broadcastInDim S64x1x1 ![] bcast_S_S64x1x1 : (⟨S_, .f32⟩ : BufTy).Contents (Elt F) → (⟨S64x1x1, .f32⟩ : BufTy).Contents (Elt F)),
    binary main_v86 main_v85 main_v87 (addf : (⟨S64x1x1, .f32⟩ : BufTy).Contents (Elt F) → (⟨S64x1x1, .f32⟩ : BufTy).Contents (Elt F) → (⟨S64x1x1, .f32⟩ : BufTy).Contents (Elt F)),
    binary main_v84 main_v87 main_v88 (Host.divf : (⟨S64x1x1, .f32⟩ : BufTy).Contents (Elt F) → (⟨S64x1x1, .f32⟩ : BufTy).Contents (Elt F) → (⟨S64x1x1, .f32⟩ : BufTy).Contents (Elt F)),
    nullary main_cst_19 (constant S_ .f32 0x322BCC77#32),
    unary main_cst_19 main_v89 (broadcastInDim S64x1x1 ![] bcast_S_S64x1x1 : (⟨S_, .f32⟩ : BufTy).Contents (Elt F) → (⟨S64x1x1, .f32⟩ : BufTy).Contents (Elt F)),
    binary main_v83 main_v89 main_v90 (addf : (⟨S64x1x1, .f32⟩ : BufTy).Contents (Elt F) → (⟨S64x1x1, .f32⟩ : BufTy).Contents (Elt F) → (⟨S64x1x1, .f32⟩ : BufTy).Contents (Elt F)),
    binary main_v88 main_v90 main_v91 (Host.divf : (⟨S64x1x1, .f32⟩ : BufTy).Contents (Elt F) → (⟨S64x1x1, .f32⟩ : BufTy).Contents (Elt F) → (⟨S64x1x1, .f32⟩ : BufTy).Contents (Elt F)),
    unary main_v91 main_v92 (broadcastInDim S64x1x256 ![0, 1, 2] bcast_S64x1x1_S64x1x256_0_1_2 : (⟨S64x1x1, .f32⟩ : BufTy).Contents (Elt F) → (⟨S64x1x256, .f32⟩ : BufTy).Contents (Elt F)),
    binary main_v92 main_v82 main_v93 (mulf : (⟨S64x1x256, .f32⟩ : BufTy).Contents (Elt F) → (⟨S64x1x256, .f32⟩ : BufTy).Contents (Elt F) → (⟨S64x1x256, .f32⟩ : BufTy).Contents (Elt F)),
    unary main_v93 main_v94 (broadcastInDim S64x4096x256 ![0, 1, 2] bcast_S64x1x256_S64x4096x256_0_1_2 : (⟨S64x1x256, .f32⟩ : BufTy).Contents (Elt F) → (⟨S64x4096x256, .f32⟩ : BufTy).Contents (Elt F)),
    binary main_v94 main_v1 main_v95 (mulf : (⟨S64x4096x256, .f32⟩ : BufTy).Contents (Elt F) → (⟨S64x4096x256, .f32⟩ : BufTy).Contents (Elt F) → (⟨S64x4096x256, .f32⟩ : BufTy).Contents (Elt F)),
    nullary main_cst_20 (constant S_ .f32 0x00000000#32),
    binary main_v95 main_cst_20 main_v96 ((fun x v => Host.reduceAdd x v reducesTo_S64x4096x256_S64x4096_d2 h_S_) : (⟨S64x4096x256, .f32⟩ : BufTy).Contents (Elt F) → (⟨S_, .f32⟩ : BufTy).Contents (Elt F) → (⟨S64x4096, .f32⟩ : BufTy).Contents (Elt F)),
    unary main_v96 main_v97 (broadcastInDim S64x4096x1 ![0, 1] bcast_S64x4096_S64x4096x1_0_1 : (⟨S64x4096, .f32⟩ : BufTy).Contents (Elt F) → (⟨S64x4096x1, .f32⟩ : BufTy).Contents (Elt F)),
    binary main_v66 main_v97 main_v98 (addf : (⟨S64x4096x1, .f32⟩ : BufTy).Contents (Elt F) → (⟨S64x4096x1, .f32⟩ : BufTy).Contents (Elt F) → (⟨S64x4096x1, .f32⟩ : BufTy).Contents (Elt F)) ]

/-- The last softmax and the two reshapes: operations 133 to 148. -/
abbrev c4 : List (HloOp τ sig (Elt F)) :=
  [ nullary main_cst_21 (constant S_ .f32 0xFF800000#32),
    binary main_v98 main_cst_21 main_v99 ((fun x v => Host.reduce FloatOps.maximumf x v reducesTo_S64x4096x1_S64x1_d1 h_S_) : (⟨S64x4096x1, .f32⟩ : BufTy).Contents (Elt F) → (⟨S_, .f32⟩ : BufTy).Contents (Elt F) → (⟨S64x1, .f32⟩ : BufTy).Contents (Elt F)),
    nullary main_cst_22 (constant S_ .f32 0xFF800000#32),
    unary main_cst_22 main_v100 (broadcastInDim S64x1 ![] bcast_S_S64x1 : (⟨S_, .f32⟩ : BufTy).Contents (Elt F) → (⟨S64x1, .f32⟩ : BufTy).Contents (Elt F)),
    binary main_v100 main_v99 main_v101 (maximumf : (⟨S64x1, .f32⟩ : BufTy).Contents (Elt F) → (⟨S64x1, .f32⟩ : BufTy).Contents (Elt F) → (⟨S64x1, .f32⟩ : BufTy).Contents (Elt F)),
    unary main_v101 main_v102 (broadcastInDim S64x1x1 ![0, 2] bcast_S64x1_S64x1x1_0_2 : (⟨S64x1, .f32⟩ : BufTy).Contents (Elt F) → (⟨S64x1x1, .f32⟩ : BufTy).Contents (Elt F)),
    unary main_v102 main_v103 (broadcastInDim S64x4096x1 ![0, 1, 2] bcast_S64x1x1_S64x4096x1_0_1_2 : (⟨S64x1x1, .f32⟩ : BufTy).Contents (Elt F) → (⟨S64x4096x1, .f32⟩ : BufTy).Contents (Elt F)),
    binary main_v98 main_v103 main_v104 (subf : (⟨S64x4096x1, .f32⟩ : BufTy).Contents (Elt F) → (⟨S64x4096x1, .f32⟩ : BufTy).Contents (Elt F) → (⟨S64x4096x1, .f32⟩ : BufTy).Contents (Elt F)),
    unary main_v104 main_v105 (Host.exp : (⟨S64x4096x1, .f32⟩ : BufTy).Contents (Elt F) → (⟨S64x4096x1, .f32⟩ : BufTy).Contents (Elt F)),
    nullary main_cst_23 (constant S_ .f32 0x00000000#32),
    binary main_v105 main_cst_23 main_v106 ((fun x v => Host.reduceAdd x v reducesTo_S64x4096x1_S64x1_d1 h_S_) : (⟨S64x4096x1, .f32⟩ : BufTy).Contents (Elt F) → (⟨S_, .f32⟩ : BufTy).Contents (Elt F) → (⟨S64x1, .f32⟩ : BufTy).Contents (Elt F)),
    unary main_v106 main_v107 (broadcastInDim S64x1x1 ![0, 2] bcast_S64x1_S64x1x1_0_2 : (⟨S64x1, .f32⟩ : BufTy).Contents (Elt F) → (⟨S64x1x1, .f32⟩ : BufTy).Contents (Elt F)),
    unary main_v107 main_v108 (broadcastInDim S64x4096x1 ![0, 1, 2] bcast_S64x1x1_S64x4096x1_0_1_2 : (⟨S64x1x1, .f32⟩ : BufTy).Contents (Elt F) → (⟨S64x4096x1, .f32⟩ : BufTy).Contents (Elt F)),
    binary main_v105 main_v108 main_v109 (Host.divf : (⟨S64x4096x1, .f32⟩ : BufTy).Contents (Elt F) → (⟨S64x4096x1, .f32⟩ : BufTy).Contents (Elt F) → (⟨S64x4096x1, .f32⟩ : BufTy).Contents (Elt F)),
    reshape main_v93 main_v110 rfl shapeCasts_S64x1x256_S64x256,
    reshape main_v109 main_v111 rfl shapeCasts_S64x4096x1_S64x4096 ]

set_option maxRecDepth 8192 in
/-- The whole list is the five stretches in order. -/
theorem ops_split : (ops : List (HloOp τ sig (Elt F))) = c0 ++ (c1 ++ (c2 ++ (c3 ++ c4))) := rfl

/-- The contents after the whole list: the five stretches' folds, one over the other. -/
theorem after_ops (V : Valuation τ sig (Elt F)) :
    after ops V = after c4 (after c3 (after c2 (after c1 (after c0 V)))) := by
  rw [ops_split, after_app, after_app, after_app, after_app]

/-! ## The first stretch: the block and the zero logits -/

/-- After the first stretch the block's buffer holds `xm = m · x` of the two arguments. -/
theorem c0_v1 (W : Valuation τ sig (Elt F)) :
    after c0 W (Proc.devRef .tc main_v1) = rXm (W (Proc.devRef .tc main_arg0)) (W (Proc.devRef .tc main_arg1)) := by
  after_results_simp
  rfl

/-- After the first stretch the logits' buffer holds zeros. -/
theorem c0_v2 (W : Valuation τ sig (Elt F)) :
    after c0 W (Proc.devRef .tc main_v2) = rB0 := by
  after_results_simp
  rfl

/-- The first stretch leaves the weights' argument as it was. -/
theorem c0_arg1 (W : Valuation τ sig (Elt F)) :
    after c0 W (Proc.devRef .tc main_arg1) = W (Proc.devRef .tc main_arg1) := by
  after_results_simp

/-! ## The first routing step -/

set_option maxRecDepth 8192 in
set_option maxHeartbeats 4000000 in
/-- After the first step the new logits are the step's `rB` of the weights, the block and the logits it found. -/
theorem c1_b (W : Valuation τ sig (Elt F)) :
    after c1 W (Proc.devRef .tc main_v34)
      = rB (W (Proc.devRef .tc main_arg1)) (W (Proc.devRef .tc main_v1)) (W (Proc.devRef .tc main_v2)) := by
  after_results_simp
  rfl

set_option maxRecDepth 8192 in
/-- The first step leaves the block as it was. -/
theorem c1_v1 (W : Valuation τ sig (Elt F)) :
    after c1 W (Proc.devRef .tc main_v1) = W (Proc.devRef .tc main_v1) := by
  after_results_simp

set_option maxRecDepth 8192 in
/-- The first step leaves the weights' argument as it was. -/
theorem c1_arg1 (W : Valuation τ sig (Elt F)) :
    after c1 W (Proc.devRef .tc main_arg1) = W (Proc.devRef .tc main_arg1) := by
  after_results_simp

/-! ## The second routing step -/

set_option maxRecDepth 8192 in
set_option maxHeartbeats 4000000 in
/-- After the second step the new logits are the step's `rB` of the weights, the block and the logits it found. -/
theorem c2_b (W : Valuation τ sig (Elt F)) :
    after c2 W (Proc.devRef .tc main_v66)
      = rB (W (Proc.devRef .tc main_arg1)) (W (Proc.devRef .tc main_v1)) (W (Proc.devRef .tc main_v34)) := by
  after_results_simp
  rfl

set_option maxRecDepth 8192 in
/-- The second step leaves the block as it was. -/
theorem c2_v1 (W : Valuation τ sig (Elt F)) :
    after c2 W (Proc.devRef .tc main_v1) = W (Proc.devRef .tc main_v1) := by
  after_results_simp

set_option maxRecDepth 8192 in
/-- The second step leaves the weights' argument as it was. -/
theorem c2_arg1 (W : Valuation τ sig (Elt F)) :
    after c2 W (Proc.devRef .tc main_arg1) = W (Proc.devRef .tc main_arg1) := by
  after_results_simp

/-! ## The third routing step -/

set_option maxRecDepth 8192 in
set_option maxHeartbeats 4000000 in
/-- After the third step the new logits are the step's `rB` of the weights, the block and the logits it found. -/
theorem c3_b (W : Valuation τ sig (Elt F)) :
    after c3 W (Proc.devRef .tc main_v98)
      = rB (W (Proc.devRef .tc main_arg1)) (W (Proc.devRef .tc main_v1)) (W (Proc.devRef .tc main_v66)) := by
  after_results_simp
  rfl

set_option maxRecDepth 8192 in
set_option maxHeartbeats 4000000 in
/-- After the third step the squashed rows are the step's `rS` of the weights, the block and the logits it found. -/
theorem c3_s (W : Valuation τ sig (Elt F)) :
    after c3 W (Proc.devRef .tc main_v93)
      = rS (W (Proc.devRef .tc main_arg1)) (W (Proc.devRef .tc main_v1)) (W (Proc.devRef .tc main_v66)) := by
  after_results_simp
  rfl

/-! ## The last stretch: the softmax of the third logits, and the two reshapes -/

/-- After the last stretch the first result is the softmax of the logits it found, read as [64, 4096]. -/
theorem c4_v111 (W : Valuation τ sig (Elt F)) :
    after c4 W (Proc.devRef .tc main_v111)
      = shapeCast S64x4096 (rSoftmax (W (Proc.devRef .tc main_v98))) shapeCasts_S64x4096x1_S64x4096 := by
  after_results_simp
  rfl

/-- After the last stretch the second result is the squashed rows it found, read as [64, 256]. -/
theorem c4_v110 (W : Valuation τ sig (Elt F)) :
    after c4 W (Proc.devRef .tc main_v110)
      = shapeCast S64x256 (W (Proc.devRef .tc main_v93)) shapeCasts_S64x1x256_S64x256 := by
  after_results_simp
  rfl

/-! ## The five stretches chained -/

/-- The first result after the whole list: the softmax of the third logits, each step's logits being the step's `rB`
    of the weights, the block `xm` and the logits of the step before, from zeros. -/
theorem ops_v111 (V : Valuation τ sig (Elt F)) :
    after ops V (Proc.devRef .tc main_v111) = rOutW (V (Proc.devRef .tc main_arg0)) (V (Proc.devRef .tc main_arg1)) := by
  rw [after_ops, c4_v111, c3_b, c2_b, c2_v1, c2_arg1, c1_b, c1_v1, c1_arg1, c0_v1, c0_v2, c0_arg1]
  rfl

/-- The second result after the whole list: the third step's squashed rows, from the second step's logits. -/
theorem ops_v110 (V : Valuation τ sig (Elt F)) :
    after ops V (Proc.devRef .tc main_v110) = rOutS (V (Proc.devRef .tc main_arg0)) (V (Proc.devRef .tc main_arg1)) := by
  rw [after_ops, c4_v110, c3_s, c2_b, c2_v1, c2_arg1, c1_b, c1_v1, c1_arg1, c0_v1, c0_v2, c0_arg1]
  rfl

set_option maxRecDepth 8192 in
set_option maxHeartbeats 4000000 in
/-- No operation writes the first argument. -/
theorem ops_arg0 (V : Valuation τ sig (Elt F)) :
    after ops V (Proc.devRef .tc main_arg0) = V (Proc.devRef .tc main_arg0) := by
  after_results_simp

set_option maxRecDepth 8192 in
set_option maxHeartbeats 4000000 in
/-- No operation writes the second argument. -/
theorem ops_arg1 (V : Valuation τ sig (Elt F)) :
    after ops V (Proc.devRef .tc main_arg1) = V (Proc.devRef .tc main_arg1) := by
  after_results_simp

set_option maxRecDepth 8192 in
set_option maxHeartbeats 4000000 in
/-- On every device, at any float instance, from any memory with zero counters: every weakly fair execution of @main
    terminates with the first result at the softmax of the third logits, the second at the third squashed rows, and
    the two arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111) = rOutW (m ((c.tc : Thread nD τ).loc main_arg0)) (m ((c.tc : Thread nD τ).loc main_arg1))
      ∧ r.2.mem ((c.tc : Thread nD τ).loc main_v110) = rOutS (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v111).trans (ops_v111 _), (h c main_v110).trans (ops_v110 _),
      (h c main_arg0).trans (ops_arg0 _), (h c main_arg1).trans (ops_arg1 _)⟩)
    (run_seq scopedRefs_eq scopedSems_eq defs main (fun _ => ops) main_eq (fun _ => ops_sub) m ρ)

end Cert.ReferenceIdeal.RunStages

end
-- ==== Proof.lean ====
/- Dynamic routing over 64 batches of 4096 capsules with 256 features, as one Pallas kernel against its jnp reference:
   equal results over the extended reals.

   Both programs scale the input by the weights, `xm = m · x`, and run three routing steps from zero logits `b`: the
   softmax `w` of `m · b` along the capsules, the weighted sum `σ = Σ_n w_n · xm_n`, its squash
   `s = (‖σ‖² / (1 + ‖σ‖²) / (‖σ‖ + ε)) · σ`, and `b ← b + ⟨s, xm_n⟩`; they return the softmax of the last logits and the
   last `s`.  The kernel does this one batch per grid point on blocks held on chip; the reference on the whole arrays.
   At the ideal instance a float is an extended real and every operation the exact one, so the two are the same function
   stage by stage: the kernel's lane reductions and the host's reductions are the same sums and the same maxima over the
   same index sets; the reference joins its maximum with `-∞` once more, which changes nothing; and where the kernel uses
   the squared length `q = Σ σ²` directly, the reference takes `√q` and squares it again, which gives `q` back because a
   sum of squares is not negative (also at `+∞`).  No law used here needs the inputs finite, so the precondition is never
   opened.

   The frames of the two kernel programs are the generated ones.  The reference's frame and its value come from its run
   stated over the routing stages (Proof/RefRun.lean, over the operation list of Proof/RefOps.lean); the kernel's value
   from the generated frame run read block by block (Proof/KArrays.lean over Proof/KPayload.lean); that the stages agree,
   batch by batch, is Proof/Rel*.lean and Proof/Bridge.lean.  The idealization ledger is empty, so `preserves` is `True`. -/
import proofs.«121942_j26946624815393_1_alg».proof.Defs
import proofs.«121942_j26946624815393_1_alg».proof.Proof.Gen.Kernel
import proofs.«121942_j26946624815393_1_alg».proof.Proof.Gen.Kernel.Skeleton
import proofs.«121942_j26946624815393_1_alg».proof.Proof.Gen.Kernel.Launch
import proofs.«121942_j26946624815393_1_alg».proof.Proof.Gen.Kernel.Points
import proofs.«121942_j26946624815393_1_alg».proof.Proof.Gen.Kernel.Frame
import proofs.«121942_j26946624815393_1_alg».proof.Proof.Gen.KernelIdeal
import proofs.«121942_j26946624815393_1_alg».proof.Proof.Gen.KernelIdeal.Skeleton
import proofs.«121942_j26946624815393_1_alg».proof.Proof.Gen.KernelIdeal.Launch
import proofs.«121942_j26946624815393_1_alg».proof.Proof.Gen.KernelIdeal.Points
import proofs.«121942_j26946624815393_1_alg».proof.Proof.Gen.KernelIdeal.Frame
import proofs.«121942_j26946624815393_1_alg».proof.Proof.Gen.ReferenceIdeal
import proofs.«121942_j26946624815393_1_alg».proof.Proof.Gen.Pre_finite_inputs
import proofs.«121942_j26946624815393_1_alg».proof.Proof.Bridge
import proofs.«121942_j26946624815393_1_alg».proof.Proof.RefRun
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run with the two results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.RunStages.run (F := Ideal) m ρ)

/-- The idealized kernel's run with its results named by the REFERENCE's functions of the arguments: the kernel's own
    whole-array functions are those (the bridge). -/
theorem kernel_run_ref (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1)
          = Cert.ReferenceIdeal.Stage.rOutW (F := Ideal) (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_v2)
          = Cert.ReferenceIdeal.Stage.rOutS (F := Ideal) (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) :=
  (θ_run Cert.KernelIdeal.defs _ _).mono
    (fun _ h c => ⟨(h c).1.trans (Cert.Bridge.GW_eq _ _), (h c).2.1.trans (Cert.Bridge.GS_eq _ _), (h c).2.2.1, (h c).2.2.2⟩)
    (Cert.KernelIdeal.Arrays.kernel_run m ρ)

/-- From memories that agree on the arguments both idealized programs end with the same two arrays: the reference's
    stage functions of the arguments, on either side. -/
theorem algebraic : Cert.algebraic_KernelIdeal_ReferenceIdeal := by
  intro m ρ m' ρ' _ hagree
  refine ⟨_, _, kernel_run_ref m ρ, ?_⟩
  refine (θ_run Cert.ReferenceIdeal.defs _ _).mono (fun _ h c => ?_) (Cert.ReferenceIdeal.RunStages.run (F := Ideal) m' ρ')
  obtain ⟨hw, hs, h0, h1⟩ := h c
  refine ⟨hw.trans ?_, hs.trans ?_, h0, h1⟩
  · rw [(hagree c).1, (hagree c).2]
  · rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
